-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100x8192 : Shape := ⟨3, ![16, 100, 8192]⟩
abbrev S8192x100 : Shape := ⟨2, ![8192, 100]⟩
abbrev S16x1x8192 : Shape := ⟨3, ![16, 1, 8192]⟩
abbrev S_ : Shape := ⟨0, ![]⟩

class Facts : Prop where
  bcast_S_S16x100x8192 : S_.BroadcastsInDim S16x100x8192 (![] : Fin 0 → Fin S16x100x8192.rank)
  reducesTo_S16x100x8192_S_d0_1_2 : S16x100x8192.ReducesTo [0, 1, 2] S_
  h_S_ : 0 < S_.numel
  bcast_S_S8192x100 : S_.BroadcastsInDim S8192x100 (![] : Fin 0 → Fin S8192x100.rank)
  reducesTo_S8192x100_S_d0_1 : S8192x100.ReducesTo [0, 1] S_
  bcast_S_S16x1x8192 : S_.BroadcastsInDim S16x1x8192 (![] : Fin 0 → Fin S16x1x8192.rank)
  reducesTo_S16x1x8192_S_d0_1_2 : S16x1x8192.ReducesTo [0, 1, 2] S_

variable [Facts]

def fn_part1 {F : FTy → Type} [FloatOps F] (main_arg4 : FVec F S16x1x8192 .f32) (main_arg5 : FVec F S16x1x8192 .f32) (main_v13 : IVec S_ 1) (main_v16 : IVec S8192x100 1) : IVec S_ 1 :=
  let main_c_5 : IVec S_ 1 := constantI S_ 1 1#1
  let main_v17 : IVec S_ 1 := (fun x v => Host.reduce IntOp.andi x v reducesTo_S8192x100_S_d0_1 h_S_) main_v16 main_c_5
  let main_v18 : IVec S_ 1 := andi main_v13 main_v17
  let main_v19 : FVec F S16x1x8192 .f32 := Host.absf main_arg4
  let main_cst_6 : FVec F S_ .f32 := constant S_ .f32 0x7F800000#32
  let main_v20 : FVec F S16x1x8192 .f32 := broadcastInDim S16x1x8192 ![] bcast_S_S16x1x8192 main_cst_6
  let main_v21 : IVec S16x1x8192 1 := cmpf .olt main_v19 main_v20
  let main_c_7 : IVec S_ 1 := constantI S_ 1 1#1
  let main_v22 : IVec S_ 1 := (fun x v => Host.reduce IntOp.andi x v reducesTo_S16x1x8192_S_d0_1_2 h_S_) main_v21 main_c_7
  let main_v23 : IVec S_ 1 := andi main_v18 main_v22
  let main_v24 : FVec F S16x1x8192 .f32 := Host.absf main_arg5
  let main_cst_8 : FVec F S_ .f32 := constant S_ .f32 0x7F800000#32
  let main_v25 : FVec F S16x1x8192 .f32 := broadcastInDim S16x1x8192 ![] bcast_S_S16x1x8192 main_cst_8
  let main_v26 : IVec S16x1x8192 1 := cmpf .olt main_v24 main_v25
  let main_c_9 : IVec S_ 1 := constantI S_ 1 1#1
  let main_v27 : IVec S_ 1 := (fun x v => Host.reduce IntOp.andi x v reducesTo_S16x1x8192_S_d0_1_2 h_S_) main_v26 main_c_9
  let main_v28 : IVec S_ 1 := andi main_v23 main_v27
  main_v28

def fn {F : FTy → Type} [FloatOps F] (main_arg0 : FVec F S16x100x8192 .f32) (main_arg1 : FVec F S8192x100 .f32) (main_arg2 : FVec F S8192x100 .f32) (main_arg3 : FVec F S8192x100 .f32) (main_arg4 : FVec F S16x1x8192 .f32) (main_arg5 : FVec F S16x1x8192 .f32) : IVec S_ 1 :=
  let main_v0 : FVec F S16x100x8192 .f32 := Host.absf main_arg0
  let main_cst : FVec F S_ .f32 := constant S_ .f32 0x7F800000#32
  let main_v1 : FVec F S16x100x8192 .f32 := broadcastInDim S16x100x8192 ![] bcast_S_S16x100x8192 main_cst
  let main_v2 : IVec S16x100x8192 1 := cmpf .olt main_v0 main_v1
  let main_c : IVec S_ 1 := constantI S_ 1 1#1
  let main_v3 : IVec S_ 1 := (fun x v => Host.reduce IntOp.andi x v reducesTo_S16x100x8192_S_d0_1_2 h_S_) main_v2 main_c
  let main_v4 : FVec F S8192x100 .f32 := Host.absf main_arg1
  let main_cst_0 : FVec F S_ .f32 := constant S_ .f32 0x7F800000#32
  let main_v5 : FVec F S8192x100 .f32 := broadcastInDim S8192x100 ![] bcast_S_S8192x100 main_cst_0
  let main_v6 : IVec S8192x100 1 := cmpf .olt main_v4 main_v5
  let main_c_1 : IVec S_ 1 := constantI S_ 1 1#1
  let main_v7 : IVec S_ 1 := (fun x v => Host.reduce IntOp.andi x v reducesTo_S8192x100_S_d0_1 h_S_) main_v6 main_c_1
  let main_v8 : IVec S_ 1 := andi main_v3 main_v7
  let main_v9 : FVec F S8192x100 .f32 := Host.absf main_arg2
  let main_cst_2 : FVec F S_ .f32 := constant S_ .f32 0x7F800000#32
  let main_v10 : FVec F S8192x100 .f32 := broadcastInDim S8192x100 ![] bcast_S_S8192x100 main_cst_2
  let main_v11 : IVec S8192x100 1 := cmpf .olt main_v9 main_v10
  let main_c_3 : IVec S_ 1 := constantI S_ 1 1#1
  let main_v12 : IVec S_ 1 := (fun x v => Host.reduce IntOp.andi x v reducesTo_S8192x100_S_d0_1 h_S_) main_v11 main_c_3
  let main_v13 : IVec S_ 1 := andi main_v8 main_v12
  let main_v14 : FVec F S8192x100 .f32 := Host.absf main_arg3
  let main_cst_4 : FVec F S_ .f32 := constant S_ .f32 0x7F800000#32
  let main_v15 : FVec F S8192x100 .f32 := broadcastInDim S8192x100 ![] bcast_S_S8192x100 main_cst_4
  let main_v16 : IVec S8192x100 1 := cmpf .olt main_v14 main_v15
  fn_part1 (F := F) main_arg4 main_arg5 main_v13 main_v16
-- ==== Kernel.lean ====
abbrev S16x100x8192 : Shape := ⟨3, ![16, 100, 8192]⟩
abbrev S8192x100 : Shape := ⟨2, ![8192, 100]⟩
abbrev S16x1x8192 : Shape := ⟨3, ![16, 1, 8192]⟩
abbrev S_ : Shape := ⟨0, ![]⟩
abbrev S8192x128 : Shape := ⟨2, ![8192, 128]⟩
abbrev S8192x384 : Shape := ⟨2, ![8192, 384]⟩
abbrev S1600x8192 : Shape := ⟨2, ![1600, 8192]⟩
abbrev S1600x128 : Shape := ⟨2, ![1600, 128]⟩
abbrev S200x8192 : Shape := ⟨2, ![200, 8192]⟩
abbrev S2x1x8192 : Shape := ⟨3, ![2, 1, 8192]⟩
abbrev S200x128 : Shape := ⟨2, ![200, 128]⟩
abbrev S200x384 : Shape := ⟨2, ![200, 384]⟩
abbrev S2x8192 : Shape := ⟨2, ![2, 8192]⟩
abbrev S4x8192 : Shape := ⟨2, ![4, 8192]⟩
abbrev S4x384 : Shape := ⟨2, ![4, 384]⟩
abbrev S2x384 : Shape := ⟨2, ![2, 384]⟩
abbrev S2x128 : Shape := ⟨2, ![2, 128]⟩
abbrev S100x128 : Shape := ⟨2, ![100, 128]⟩
abbrev S1x128 : Shape := ⟨2, ![1, 128]⟩
abbrev S99x128 : Shape := ⟨2, ![99, 128]⟩
abbrev S100 : Shape := ⟨1, ![100]⟩
abbrev S100x1 : Shape := ⟨2, ![100, 1]⟩
abbrev S16x100x128 : Shape := ⟨3, ![16, 100, 128]⟩
abbrev S16x100x100 : Shape := ⟨3, ![16, 100, 100]⟩

abbrev nBuf : Space → Nat
  | .hbm => 20
  | .vmem => 9
  | .smem => 0
  | _ => 0

abbrev bufTy : (tb : Table) → Fin (tcTables nBuf tb) → BufTy
  | .hbm, ⟨0, _⟩ => ⟨S16x100x8192, .f32⟩
  | .hbm, ⟨1, _⟩ => ⟨S8192x100, .f32⟩
  | .hbm, ⟨2, _⟩ => ⟨S8192x100, .f32⟩
  | .hbm, ⟨3, _⟩ => ⟨S8192x100, .f32⟩
  | .hbm, ⟨4, _⟩ => ⟨S16x1x8192, .f32⟩
  | .hbm, ⟨5, _⟩ => ⟨S16x1x8192, .f32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S8192x384, .f32⟩
  | .hbm, ⟨16, _⟩ => ⟨S1600x8192, .f32⟩
  | .hbm, ⟨17, _⟩ => ⟨S1600x128, .f32⟩
  | .hbm, ⟨18, _⟩ => ⟨S16x100x128, .f32⟩
  | .hbm, ⟨19, _⟩ => ⟨S16x100x100, .f32⟩
  | .local _ .vmem, ⟨0, _⟩ => ⟨S200x8192, .f32⟩
  | .local _ .vmem, ⟨1, _⟩ => ⟨S200x8192, .f32⟩
  | .local _ .vmem, ⟨2, _⟩ => ⟨S2x1x8192, .f32⟩
  | .local _ .vmem, ⟨3, _⟩ => ⟨S2x1x8192, .f32⟩
  | .local _ .vmem, ⟨4, _⟩ => ⟨S2x1x8192, .f32⟩
  | .local _ .vmem, ⟨5, _⟩ => ⟨S2x1x8192, .f32⟩
  | .local _ .vmem, ⟨6, _⟩ => ⟨S8192x384, .f32⟩
  | .local _ .vmem, ⟨7, _⟩ => ⟨S200x128, .f32⟩
  | .local _ .vmem, ⟨8, _⟩ => ⟨S200x128, .f32⟩
  | _, _ => ⟨S16x100x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S8192x100_S8192x128_000_0280 : S8192x100.Pads (![0, 0] : Fin 2 → Nat) ![0, 28] ![0, 0] S8192x128
  h_S_ : 0 < S_.numel
  concatenates_S8192x128_S8192x128_S8192x128_S8192x384_d1 : Shape.Concatenates [S8192x128, S8192x128, S8192x128] S8192x384 1
  shapeCasts_S16x100x8192_S1600x8192 : S16x100x8192.ShapeCasts S1600x8192
  inb_S200x8192_S200x8192_0_0 : ∀ a, (![0, 0] : Fin 2 → Nat) a + S200x8192.size a ≤ S200x8192.size a
  h_S200x8192 : 0 < S200x8192.numel
  shapeCasts_S200x8192_S200x8192 : S200x8192.ShapeCasts S200x8192
  inb_S8192x384_S8192x384_0_0 : ∀ a, (![0, 0] : Fin 2 → Nat) a + S8192x384.size a ≤ S8192x384.size a
  h_S8192x384 : 0 < S8192x384.numel
  shapeCasts_S8192x384_S8192x384 : S8192x384.ShapeCasts S8192x384
  slices_S200x384_o0_0_S200x128 : S200x384.Slices ![0, 0] S200x128
  slices_S200x384_o0_128_S200x128 : S200x384.Slices ![0, 128] S200x128
  slices_S200x384_o0_256_S200x128 : S200x384.Slices ![0, 256] S200x128
  inb_S2x1x8192_S2x1x8192_0_0_0 : ∀ a, (![0, 0, 0] : Fin 3 → Nat) a + S2x1x8192.size a ≤ S2x1x8192.size a
  h_S2x1x8192 : 0 < S2x1x8192.numel
  shapeCasts_S2x1x8192_S2x8192 : S2x1x8192.ShapeCasts S2x8192
  concatenates_S2x8192_S2x8192_S4x8192_d0 : Shape.Concatenates [S2x8192, S2x8192] S4x8192 0
  slices_S4x384_o0_0_S2x384 : S4x384.Slices ![0, 0] S2x384
  slices_S4x384_o2_0_S2x384 : S4x384.Slices ![2, 0] S2x384
  slices_S2x384_o0_128_S2x128 : S2x384.Slices ![0, 128] S2x128
  slices_S2x384_o0_256_S2x128 : S2x384.Slices ![0, 256] S2x128
  slices_S200x128_o0_0_S100x128 : S200x128.Slices ![0, 0] S100x128
  slices_S2x128_o0_0_S1x128 : S2x128.Slices ![0, 0] S1x128
  slices_S100x128_o0_0_S99x128 : S100x128.Slices ![0, 0] S99x128
  concatenates_S1x128_S99x128_S100x128_d0 : Shape.Concatenates [S1x128, S99x128] S100x128 0
  slices_S100x128_o1_0_S99x128 : S100x128.Slices ![1, 0] S99x128
  concatenates_S99x128_S1x128_S100x128_d0 : Shape.Concatenates [S99x128, S1x128] S100x128 0
  reduces_S100x128_S100 : S100x128.Reduces [1] S100
  shapeCasts_S100_S100x1 : S100.ShapeCasts S100x1
  broadcasts_S100x1_S100x128 : S100x1.Broadcasts S100x128
  inb_S200x128_S100x128_0_0 : ∀ a, (![0, 0] : Fin 2 → Nat) a + S100x128.size a ≤ S200x128.size a
  h_S100x128 : 0 < S100x128.numel
  slices_S200x128_o100_0_S100x128 : S200x128.Slices ![100, 0] S100x128
  slices_S2x128_o1_0_S1x128 : S2x128.Slices ![1, 0] S1x128
  inb_S200x128_S100x128_100_0 : ∀ a, (![100, 0] : Fin 2 → Nat) a + S100x128.size a ≤ S200x128.size a
  shapeCasts_S1600x128_S16x100x128 : S1600x128.ShapeCasts S16x100x128
  slices_S16x100x128_S16x100x100_0_0_0 : S16x100x128.Slices ![0, 0, 0] S16x100x100
  dot_S200x8192_S8192x384_S200x384_1_0_0_1_n_n_wf : DotDims.WF S200x8192 S8192x384 S200x384 [1] [0] [0] [1] [] []
  dot_S4x8192_S8192x384_S4x384_1_0_0_1_n_n_wf : DotDims.WF S4x8192 S8192x384 S4x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x8192.size a ≤ S1600x8192.size a
  hwx0_0 : ∀ i : grid0.Coords, EltTy.bits .f32 = 32 ∨ (Rect.block (s := S1600x8192) S200x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x8192.size a ≤ S16x1x8192.size a
  hwx0_1 : ∀ i : grid0.Coords, EltTy.bits .f32 = 32 ∨ (Rect.block (s := S16x1x8192) S2x1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x8192.size a ≤ S16x1x8192.size a
  hwx0_2 : ∀ i : grid0.Coords, EltTy.bits .f32 = 32 ∨ (Rect.block (s := S16x1x8192) S2x1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x384.size a ≤ S8192x384.size a
  hwx0_3 : ∀ i : grid0.Coords, EltTy.bits .f32 = 32 ∨ (Rect.block (s := S8192x384) S8192x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S1600x128.size a
  hwx0_4 : ∀ i : grid0.Coords, EltTy.bits .f32 = 32 ∨ (Rect.block (s := S1600x128) S200x128.size (cc0_transform_4 i) (hinb0_4 i)).WholeWords (EltTy.packing .f32)

variable [Facts₀]

def dot_S200x8192_S8192x384_S200x384_1_0_0_1_n_n : DotDims S200x8192 S8192x384 S200x384 where
  lhsContracting := [1]
  rhsContracting := [0]
  lhsNonContracting := [0]
  rhsNonContracting := [1]
  lhsBatch := []
  rhsBatch := []
  wf := dot_S200x8192_S8192x384_S200x384_1_0_0_1_n_n_wf
def dot_S4x8192_S8192x384_S4x384_1_0_0_1_n_n : DotDims S4x8192 S8192x384 S4x384 where
  lhsContracting := [1]
  rhsContracting := [0]
  lhsNonContracting := [0]
  rhsNonContracting := [1]
  lhsBatch := []
  rhsBatch := []
  wf := dot_S4x8192_S8192x384_S4x384_1_0_0_1_n_n_wf

abbrev win0_0 : Pipeline.Window sig grid0 :=
  Pipeline.Window.ofSpec (Memref.whole main_v4) S200x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x100x8192 : Shape := ⟨3, ![16, 100, 8192]⟩
abbrev S8192x100 : Shape := ⟨2, ![8192, 100]⟩
abbrev S16x1x8192 : Shape := ⟨3, ![16, 1, 8192]⟩
abbrev S16x102x8192 : Shape := ⟨3, ![16, 102, 8192]⟩
abbrev S100 : Shape := ⟨1, ![100]⟩
abbrev S100x1 : Shape := ⟨2, ![100, 1]⟩
abbrev S3 : Shape := ⟨1, ![3]⟩
abbrev S1x3 : Shape := ⟨2, ![1, 3]⟩
abbrev S100x3 : Shape := ⟨2, ![100, 3]⟩
abbrev S_ : Shape := ⟨0, ![]⟩
abbrev S100x3x1 : Shape := ⟨3, ![100, 3, 1]⟩
abbrev S16x100x3x8192 : Shape := ⟨4, ![16, 100, 3, 8192]⟩
abbrev S16x100x3x100 : Shape := ⟨4, ![16, 100, 3, 100]⟩
abbrev S16x100x3x3 : Shape := ⟨4, ![16, 100, 3, 3]⟩
abbrev S16x100x3 : Shape := ⟨3, ![16, 100, 3]⟩
abbrev S16x100x3x1 : Shape := ⟨4, ![16, 100, 3, 1]⟩
abbrev S16x100x1x100 : Shape := ⟨4, ![16, 100, 1, 100]⟩
abbrev S16x100x100 : Shape := ⟨3, ![16, 100, 100]⟩

abbrev nBuf : Space → Nat
  | .hbm => 44
  | .vmem => 0
  | .smem => 0
  | _ => 0

abbrev bufTy : (tb : Table) → Fin (tcTables nBuf tb) → BufTy
  | .hbm, ⟨0, _⟩ => ⟨S16x100x8192, .f32⟩
  | .hbm, ⟨1, _⟩ => ⟨S8192x100, .f32⟩
  | .hbm, ⟨2, _⟩ => ⟨S8192x100, .f32⟩
  | .hbm, ⟨3, _⟩ => ⟨S8192x100, .f32⟩
  | .hbm, ⟨4, _⟩ => ⟨S16x1x8192, .f32⟩
  | .hbm, ⟨5, _⟩ => ⟨S16x1x8192, .f32⟩
  | .hbm, ⟨6, _⟩ => ⟨S16x102x8192, .f32⟩
  | .hbm, ⟨7, _⟩ => ⟨S100, .i32⟩
  | .hbm, ⟨8, _⟩ => ⟨S100x1, .i32⟩
  | .hbm, ⟨9, _⟩ => ⟨S3, .i32⟩
  | .hbm, ⟨10, _⟩ => ⟨S1x3, .i32⟩
  | .hbm, ⟨11, _⟩ => ⟨S100x3, .i32⟩
  | .hbm, ⟨12, _⟩ => ⟨S100x3, .i32⟩
  | .hbm, ⟨13, _⟩ => ⟨S100x3, .i32⟩
  | .hbm, ⟨14, _⟩ => ⟨S_, .i32⟩
  | .hbm, ⟨15, _⟩ => ⟨S100x3, .i32⟩
  | .hbm, ⟨16, _⟩ => ⟨S100x3, .i1⟩
  | .hbm, ⟨17, _⟩ => ⟨S_, .i32⟩
  | .hbm, ⟨18, _⟩ => ⟨S100x3, .i32⟩
  | .hbm, ⟨19, _⟩ => ⟨S100x3, .i32⟩
  | .hbm, ⟨20, _⟩ => ⟨S100x3, .i32⟩
  | .hbm, ⟨21, _⟩ => ⟨S100x3x1, .i32⟩
  | .hbm, ⟨22, _⟩ => ⟨S16x100x3x8192, .f32⟩
  | .hbm, ⟨23, _⟩ => ⟨S16x100x3x100, .f32⟩
  | .hbm, ⟨24, _⟩ => ⟨S16x100x3x100, .f32⟩
  | .hbm, ⟨25, _⟩ => ⟨S16x100x3x100, .f32⟩
  | .hbm, ⟨26, _⟩ => ⟨S16x100x3x3, .f32⟩
  | .hbm, ⟨27, _⟩ => ⟨S_, .f32⟩
  | .hbm, ⟨28, _⟩ => ⟨S16x100x3, .f32⟩
  | .hbm, ⟨29, _⟩ => ⟨S_, .f32⟩
  | .hbm, ⟨30, _⟩ => ⟨S16x100x3, .f32⟩
  | .hbm, ⟨31, _⟩ => ⟨S16x100x3, .f32⟩
  | .hbm, ⟨32, _⟩ => ⟨S16x100x3x1, .f32⟩
  | .hbm, ⟨33, _⟩ => ⟨S16x100x3x3, .f32⟩
  | .hbm, ⟨34, _⟩ => ⟨S16x100x3x3, .f32⟩
  | .hbm, ⟨35, _⟩ => ⟨S16x100x3x3, .f32⟩
  | .hbm, ⟨36, _⟩ => ⟨S_, .f32⟩
  | .hbm, ⟨37, _⟩ => ⟨S16x100x3, .f32⟩
  | .hbm, ⟨38, _⟩ => ⟨S16x100x3x1, .f32⟩
  | .hbm, ⟨39, _⟩ => ⟨S16x100x3x3, .f32⟩
  | .hbm, ⟨40, _⟩ => ⟨S16x100x3x3, .f32⟩
  | .hbm, ⟨41, _⟩ => ⟨S16x100x3x100, .f32⟩
  | .hbm, ⟨42, _⟩ => ⟨S16x100x1x100, .f32⟩
  | .hbm, ⟨43, _⟩ => ⟨S16x100x100, .f32⟩
  | _, _ => ⟨S16x100x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  concatenates_S16x1x8192_S16x100x8192_S16x1x8192_S16x102x8192_d1 : Shape.Concatenates [S16x1x8192, S16x100x8192, S16x1x8192] S16x102x8192 1
  bcast_S100_S100x1_0 : S100.BroadcastsInDim S100x1 (![0] : Fin 1 → Fin S100x1.rank)
  bcast_S3_S1x3_1 : S3.BroadcastsInDim S1x3 (![1] : Fin 1 → Fin S1x3.rank)
  bcast_S100x1_S100x3_0_1 : S100x1.BroadcastsInDim S100x3 (![0, 1] : Fin 2 → Fin S100x3.rank)
  bcast_S1x3_S100x3_0_1 : S1x3.BroadcastsInDim S100x3 (![0, 1] : Fin 2 → Fin S100x3.rank)
  bcast_S_S100x3 : S_.BroadcastsInDim S100x3 (![] : Fin 0 → Fin S100x3.rank)
  bcast_S100x3_S100x3x1_0_1 : S100x3.BroadcastsInDim S100x3x1 (![0, 1] : Fin 2 → Fin S100x3x1.rank)
  reducesTo_S16x100x3x3_S16x100x3_d3 : S16x100x3x3.ReducesTo [3] S16x100x3
  h_S_ : 0 < S_.numel
  bcast_S_S16x100x3 : S_.BroadcastsInDim S16x100x3 (![] : Fin 0 → Fin S16x100x3.rank)
  bcast_S16x100x3_S16x100x3x1_0_1_2 : S16x100x3.BroadcastsInDim S16x100x3x1 (![0, 1, 2] : Fin 3 → Fin S16x100x3x1.rank)
  bcast_S16x100x3x1_S16x100x3x3_0_1_2_3 : S16x100x3x1.BroadcastsInDim S16x100x3x3 (![0, 1, 2, 3] : Fin 4 → Fin S16x100x3x3.rank)
  slices_S16x100x3x100_S16x100x1x100_0_0_1_0 : S16x100x3x100.Slices ![0, 0, 1, 0] S16x100x1x100
  shapeCasts_S16x100x1x100_S16x100x100 : S16x100x1x100.ShapeCasts S16x100x100
  gather_S16x102x8192_S100x3x1_S16x100x3x8192_03_1_n_n_1_2_1618192_wf : GatherDims.WF S16x102x8192 S100x3x1 S16x100x3x8192 [0, 3] [1] [] [1] [] 2 ![16, 1, 8192]
  dot_S16x100x3x8192_S8192x100_S16x100x3x100_3_0_012_1_n_n_wf : DotDims.WF S16x100x3x8192 S8192x100 S16x100x3x100 [3] [0] [0, 1, 2] [1] [] []
  dot_S16x100x3x100_S16x100x3x100_S16x100x3x3_3_3_2_2_01_01_wf : DotDims.WF S16x100x3x100 S16x100x3x100 S16x100x3x3 [3] [3] [2] [2] [0, 1] [0, 1]
  dot_S16x100x3x3_S16x100x3x100_S16x100x3x100_3_2_2_3_01_01_wf : DotDims.WF S16x100x3x3 S16x100x3x100 S16x100x3x100 [3] [2] [2] [3] [0, 1] [0, 1]

variable [Facts₀]

def gather_S16x102x8192_S100x3x1_S16x100x3x8192_03_1_n_n_1_2_1618192 : GatherDims S16x102x8192 S100x3x1 S16x100x3x8192 where
  offsetDims := [0, 3]
  collapsedSliceDims := [1]
  operandBatchingDims := []
  startIndicesBatchingDims := []
  startIndexMap := [1]
  indexVectorDim := 2
  sliceSizes := ![16, 1, 8192]
  wf := gather_S16x102x8192_S100x3x1_S16x100x3x8192_03_1_n_n_1_2_1618192_wf
def dot_S16x100x3x8192_S8192x100_S16x100x3x100_3_0_012_1_n_n : DotDims S16x100x3x8192 S8192x100 S16x100x3x100 where
  lhsContracting := [3]
  rhsContracting := [0]
  lhsNonContracting := [0, 1, 2]
  rhsNonContracting := [1]
  lhsBatch := []
  rhsBatch := []
  wf := dot_S16x100x3x8192_S8192x100_S16x100x3x100_3_0_012_1_n_n_wf
def dot_S16x100x3x100_S16x100x3x100_S16x100x3x3_3_3_2_2_01_01 : DotDims S16x100x3x100 S16x100x3x100 S16x100x3x3 where
  lhsContracting := [3]
  rhsContracting := [3]
  lhsNonContracting := [2]
  rhsNonContracting := [2]
  lhsBatch := [0, 1]
  rhsBatch := [0, 1]
  wf := dot_S16x100x3x100_S16x100x3x100_S16x100x3x3_3_3_2_2_01_01_wf
def dot_S16x100x3x3_S16x100x3x100_S16x100x3x100_3_2_2_3_01_01 : DotDims S16x100x3x3 S16x100x3x100 S16x100x3x100 where
  lhsContracting := [3]
  rhsContracting := [2]
  lhsNonContracting := [2]
  rhsNonContracting := [3]
  lhsBatch := [0, 1]
  rhsBatch := [0, 1]
  wf := dot_S16x100x3x3_S16x100x3x100_S16x100x3x100_3_2_2_3_01_01_wf

class Facts : Prop extends Facts₀ where

variable [Facts]
-- ==== Proof.KBody.lean ====
/-
  The kernel body of one grid point, run once: it loads the sequence block, the fused weight matrix and the two pad
  blocks whole, and stores the output block in two halves — rows 0..99 (the first batch of the pair) and rows 100..199
  (the second) — each a pure function of the four loaded blocks. `outBlk` is the output block that leaves: the two
  stored halves laid side by side, which tile the block. `sound_kernel` is the body's triple: on whole staging
  buffers holding the four inputs, whatever the output buffer held, it ends with the inputs as they were and the output
  buffer at `outBlk` of them.
-/
import proofs.«418362_j13082470384196_3_alg».proof.Proof.Gen.Kernel.Launch
import proofs.«418362_j13082470384196_3_alg».proof.Proof.Gen.Kernel.Skeleton
import proofs.«418362_j13082470384196_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- The whole sequence block (200 rows of 8192 features). -/
abbrev rX : Rect S200x8192 := Rect.unit (s := S200x8192) ![0, 0] S200x8192.size inb_S200x8192_S200x8192_0_0
/-- The whole fused weight matrix (8192 by 384). -/
abbrev rW : Rect S8192x384 := Rect.unit (s := S8192x384) ![0, 0] S8192x384.size inb_S8192x384_S8192x384_0_0
/-- A whole pad block (two batches, one row each). -/
abbrev rP : Rect S2x1x8192 := Rect.unit (s := S2x1x8192) ![0, 0, 0] S2x1x8192.size inb_S2x1x8192_S2x1x8192_0_0_0
/-- Rows 0..99 of the output block: the first batch of the pair. -/
abbrev rLo : Rect S200x128 := Rect.unit (s := S200x128) ![0, 0] S100x128.size inb_S200x128_S100x128_0_0
/-- Rows 100..199 of the output block: the second batch of the pair. -/
abbrev rHi : Rect S200x128 := Rect.unit (s := S200x128) ![100, 0] S100x128.size inb_S200x128_S100x128_100_0

/-- What the body stores into rows 0..99, from the four loaded blocks. -/
def loPay (x : Vec F S200x8192 .f32) (w : Vec F S8192x384 .f32) (f g : Vec F S2x1x8192 .f32) : FVec F S100x128 .f32 :=
  k0_pay22 (k0_pay16 x w) (k0_pay17 x w f g) (k0_pay18 x w f g) (k0_pay19 x w f g) (k0_pay20 x w) (k0_pay21 x w f g)

/-- What the body stores into rows 100..199, from the four loaded blocks. -/
def hiPay (x : Vec F S200x8192 .f32) (w : Vec F S8192x384 .f32) (f g : Vec F S2x1x8192 .f32) : FVec F S100x128 .f32 :=
  k0_pay1 (k0_pay25 (k0_pay6 x w)) (k0_pay26 (k0_pay6 x w) (k0_pay11 w f g)) (k0_pay27 (k0_pay6 x w) (k0_pay13 w f g))
    (k0_pay32 (k0_pay4 x w) (k0_pay5 x w) (k0_pay10 w f g) (k0_pay12 w f g))
    (k0_pay33 (k0_pay4 x w) (k0_pay5 x w) (k0_pay10 w f g) (k0_pay12 w f g))
    (k0_pay34 (k0_pay4 x w) (k0_pay5 x w) (k0_pay10 w f g) (k0_pay12 w f g))
    (k0_pay35 (k0_pay4 x w) (k0_pay5 x w) (k0_pay10 w f g) (k0_pay12 w f g))

/-- The output block after the body: its two stores laid over one another (the later one first). -/
def outBlk (x0 : Vec F S200x8192 .f32) (x1 x2 : Vec F S2x1x8192 .f32) (x3 : Vec F S8192x384 .f32) : Vec F S200x128 .f32 :=
  View.canon [⟨rHi, hiPay (View.ld x0 rX) (View.ld x3 rW) (View.ld x1 rP) (View.ld x2 rP)⟩,
              ⟨rLo, loPay (View.ld x0 rX) (View.ld x3 rW) (View.ld x1 rP) (View.ld x2 rP)⟩]

/-- The two row-halves tile the output block. -/
theorem outBlk_cover (p0 p1 : Vec F S100x128 .f32) (y : S200x128.Idx) :
    ∃ pc ∈ ([⟨rHi, p0⟩, ⟨rLo, p1⟩] : List (View.Piece (Elt F) S200x128 .f32)), y ∈ pc.1.set :=
  View.cover_of_tiled [⟨rHi, p0⟩, ⟨rLo, p1⟩] S100x128.size (by rfl) y

set_option maxHeartbeats 1000000 in
/-- The kernel body on whole staging memrefs — the four inputs' at read contents, the output's at anything — runs to the
    continuation holding the inputs' as they were and the output's at `outBlk` of the inputs'. -/
theorem sound_kernel (c : Dev nD) (E : Set ℕ) (i : grid0.Coords)
    (arg1 : Memref sig .tc .vmem S200x8192 .f32) (harg1 : arg1.IsWhole) (arg2 : Memref sig .tc .vmem S2x1x8192 .f32) (harg2 : arg2.IsWhole)
    (arg3 : Memref sig .tc .vmem S2x1x8192 .f32) (harg3 : arg3.IsWhole) (arg4 : Memref sig .tc .vmem S8192x384 .f32) (harg4 : arg4.IsWhole)
    (arg5 : Memref sig .tc .vmem S200x128 .f32) (harg5 : arg5.IsWhole)
    (x0 : Vec F S200x8192 .f32) (x1 x2 : Vec F S2x1x8192 .f32) (x3 : Vec F S8192x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact View.read_writes_eq_canon _ _ _ (outBlk_cover _ _)

end Cert.Kernel.Frm

end
-- ==== Proof.KFrame.lean ====
/-
  The frame of the program: @main is seven stretches of host operations (three zero-paddings of the projection
  matrices from 100 to 128 columns, their concatenation side by side, the flattening of the sequence array to 1600
  rows), one pipelined region over a grid of eight points (two batches each), and two host operations after it (the
  output unflattened, its 28 padding lanes cut off). The region's proof data: each of the four input windows holds its
  block at every point (the weight matrix is fetched once and kept), the output window holds `outBlk` of the four
  input blocks. From the body's triple the library's launch theorem gives the run; read at the six argument arrays —
  none is written by a host operation, two are staged as inputs, four bypass the region — the run is the frame claim.
-/
import proofs.«418362_j13082470384196_3_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before the
    region (three zero-paddings of the projection matrices, their concatenation, the flattening of the sequence array). -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host operations, the region, host operations: it reduces to the region continued by the later ones, at the
    contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the six
    argument arrays — the two pad arrays, which the pipeline stages as inputs, and the four arrays that bypass the
    region — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 1).trans (((dats 0 c).arrAt_in 1 rfl _).trans ((hA c 1).trans (V_main_arg4 m c))),
    ((h c).1 2).trans (((dats 0 c).arrAt_in 2 rfl _).trans ((hA c 2).trans (V_main_arg5 m c)))⟩) h

/-! ## The pipeline's proof data -/

/-- The proof data of the one pipeline on core `c`: the arrays as the region finds them; after the body at point `t` each
    input's buffer at its block and the output's at `outBlk` of the four input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.KIBody.lean ====
/-
  The kernel body of one grid point, run once: it loads the sequence block, the fused weight matrix and the two pad
  blocks whole, and stores the output block in two halves — rows 0..99 (the first batch of the pair) and rows 100..199
  (the second) — each a pure function of the four loaded blocks. `outBlk` is the output block that leaves: the two
  stored halves laid side by side, which tile the block. `sound_kernel` is the body's triple: on whole staging
  buffers holding the four inputs, whatever the output buffer held, it ends with the inputs as they were and the output
  buffer at `outBlk` of them.
-/
import proofs.«418362_j13082470384196_3_alg».proof.Proof.Gen.KernelIdeal.Launch
import proofs.«418362_j13082470384196_3_alg».proof.Proof.Gen.KernelIdeal.Skeleton
import proofs.«418362_j13082470384196_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- The whole sequence block (200 rows of 8192 features). -/
abbrev rX : Rect S200x8192 := Rect.unit (s := S200x8192) ![0, 0] S200x8192.size inb_S200x8192_S200x8192_0_0
/-- The whole fused weight matrix (8192 by 384). -/
abbrev rW : Rect S8192x384 := Rect.unit (s := S8192x384) ![0, 0] S8192x384.size inb_S8192x384_S8192x384_0_0
/-- A whole pad block (two batches, one row each). -/
abbrev rP : Rect S2x1x8192 := Rect.unit (s := S2x1x8192) ![0, 0, 0] S2x1x8192.size inb_S2x1x8192_S2x1x8192_0_0_0
/-- Rows 0..99 of the output block: the first batch of the pair. -/
abbrev rLo : Rect S200x128 := Rect.unit (s := S200x128) ![0, 0] S100x128.size inb_S200x128_S100x128_0_0
/-- Rows 100..199 of the output block: the second batch of the pair. -/
abbrev rHi : Rect S200x128 := Rect.unit (s := S200x128) ![100, 0] S100x128.size inb_S200x128_S100x128_100_0

/-- What the body stores into rows 0..99, from the four loaded blocks. -/
def loPay (x : Vec F S200x8192 .f32) (w : Vec F S8192x384 .f32) (f g : Vec F S2x1x8192 .f32) : FVec F S100x128 .f32 :=
  k0_pay22 (k0_pay16 x w) (k0_pay17 x w f g) (k0_pay18 x w f g) (k0_pay19 x w f g) (k0_pay20 x w) (k0_pay21 x w f g)

/-- What the body stores into rows 100..199, from the four loaded blocks. -/
def hiPay (x : Vec F S200x8192 .f32) (w : Vec F S8192x384 .f32) (f g : Vec F S2x1x8192 .f32) : FVec F S100x128 .f32 :=
  k0_pay1 (k0_pay25 (k0_pay6 x w)) (k0_pay26 (k0_pay6 x w) (k0_pay11 w f g)) (k0_pay27 (k0_pay6 x w) (k0_pay13 w f g))
    (k0_pay32 (k0_pay4 x w) (k0_pay5 x w) (k0_pay10 w f g) (k0_pay12 w f g))
    (k0_pay33 (k0_pay4 x w) (k0_pay5 x w) (k0_pay10 w f g) (k0_pay12 w f g))
    (k0_pay34 (k0_pay4 x w) (k0_pay5 x w) (k0_pay10 w f g) (k0_pay12 w f g))
    (k0_pay35 (k0_pay4 x w) (k0_pay5 x w) (k0_pay10 w f g) (k0_pay12 w f g))

/-- The output block after the body: its two stores laid over one another (the later one first). -/
def outBlk (x0 : Vec F S200x8192 .f32) (x1 x2 : Vec F S2x1x8192 .f32) (x3 : Vec F S8192x384 .f32) : Vec F S200x128 .f32 :=
  View.canon [⟨rHi, hiPay (View.ld x0 rX) (View.ld x3 rW) (View.ld x1 rP) (View.ld x2 rP)⟩,
              ⟨rLo, loPay (View.ld x0 rX) (View.ld x3 rW) (View.ld x1 rP) (View.ld x2 rP)⟩]

/-- The two row-halves tile the output block. -/
theorem outBlk_cover (p0 p1 : Vec F S100x128 .f32) (y : S200x128.Idx) :
    ∃ pc ∈ ([⟨rHi, p0⟩, ⟨rLo, p1⟩] : List (View.Piece (Elt F) S200x128 .f32)), y ∈ pc.1.set :=
  View.cover_of_tiled [⟨rHi, p0⟩, ⟨rLo, p1⟩] S100x128.size (by rfl) y

set_option maxHeartbeats 1000000 in
/-- The kernel body on whole staging memrefs — the four inputs' at read contents, the output's at anything — runs to the
    continuation holding the inputs' as they were and the output's at `outBlk` of the inputs'. -/
theorem sound_kernel (c : Dev nD) (E : Set ℕ) (i : grid0.Coords)
    (arg1 : Memref sig .tc .vmem S200x8192 .f32) (harg1 : arg1.IsWhole) (arg2 : Memref sig .tc .vmem S2x1x8192 .f32) (harg2 : arg2.IsWhole)
    (arg3 : Memref sig .tc .vmem S2x1x8192 .f32) (harg3 : arg3.IsWhole) (arg4 : Memref sig .tc .vmem S8192x384 .f32) (harg4 : arg4.IsWhole)
    (arg5 : Memref sig .tc .vmem S200x128 .f32) (harg5 : arg5.IsWhole)
    (x0 : Vec F S200x8192 .f32) (x1 x2 : Vec F S2x1x8192 .f32) (x3 : Vec F S8192x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact View.read_writes_eq_canon _ _ _ (outBlk_cover _ _)

end Cert.KernelIdeal.Frm

end
-- ==== Proof.KIFrame.lean ====
/-
  The frame of the program: @main is seven stretches of host operations (three zero-paddings of the projection
  matrices from 100 to 128 columns, their concatenation side by side, the flattening of the sequence array to 1600
  rows), one pipelined region over a grid of eight points (two batches each), and two host operations after it (the
  output unflattened, its 28 padding lanes cut off). The region's proof data: each of the four input windows holds its
  block at every point (the weight matrix is fetched once and kept), the output window holds `outBlk` of the four
  input blocks. From the body's triple the library's launch theorem gives the run; read at the six argument arrays —
  none is written by a host operation, two are staged as inputs, four bypass the region — the run is the frame claim.
-/
import proofs.«418362_j13082470384196_3_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before the
    region (three zero-paddings of the projection matrices, their concatenation, the flattening of the sequence array). -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host operations, the region, host operations: it reduces to the region continued by the later ones, at the
    contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the six
    argument arrays — the two pad arrays, which the pipeline stages as inputs, and the four arrays that bypass the
    region — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 1).trans (((dats 0 c).arrAt_in 1 rfl _).trans ((hA c 1).trans (V_main_arg4 m c))),
    ((h c).1 2).trans (((dats 0 c).arrAt_in 2 rfl _).trans ((hA c 2).trans (V_main_arg5 m c)))⟩) h

/-! ## The pipeline's proof data -/

/-- The proof data of the one pipeline on core `c`: the arrays as the region finds them; after the body at point `t` each
    input's buffer at its block and the output's at `outBlk` of the four input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.AttnSpec.lean ====
/-
  Windowed three-tap attention over a padded sequence, as one function of the six argument arrays.

  For batch `b`, position `s` (0..99) and feature `p` (0..99): the padded sequence of batch `b` has 102 rows — the
  forward pad row, the 100 rows of `x`, the backward pad row — and window `s` is its rows `s`, `s+1`, `s+2` (taps
  `u = 0, 1, 2`; the centre tap `u = 1` is `x[b, s]`). Every row is projected by the three weight matrices
  (`proj`: a row times a matrix, a sum over the 8192 features). The score of tap `u` is the inner product of the
  centre row's query with tap `u`'s key; the three scores are soft-maxed (the maximum subtracted before the
  exponential) and the result is the soft-max-weighted sum of the three taps' values.

  `attend` weights each value by `e_u / (e_0 + e_1 + e_2)` and then sums; `attendK` sums `e_u * v_u` first and
  divides once. Over the extended reals the two agree when every input is finite: then every score is a real, every
  `e_u` a positive real, the denominator a positive real, and division by it distributes over the sum
  (`attendK_eq_attend`).
-/
import Idealize.ShloMosaic.PureOps.Ideal
import Idealize.ShloMosaic.Lib.ValueIdx

noncomputable section

open scoped BigOperators

namespace Cert.Attn

open Idealize.ShloMosaic Idealize.ShloMosaic.ValueIdx

/-- The sequence array `x`: batch, position, feature. -/
abbrev XArr := (⟨3, ![16, 100, 8192]⟩ : Shape).Idx → EReal
/-- A projection matrix: feature, projected feature. -/
abbrev WArr := (⟨2, ![8192, 100]⟩ : Shape).Idx → EReal
/-- A pad array: batch, one row, feature. -/
abbrev PArr := (⟨3, ![16, 1, 8192]⟩ : Shape).Idx → EReal
/-- The result: batch, position, projected feature. -/
abbrev OArr := (⟨3, ![16, 100, 100]⟩ : Shape).Idx → EReal

/-- Row `j` (0..101) of batch `b`'s padded sequence: the forward pad, then the rows of `x`, then the backward pad. -/
def prow (x : XArr) (f g : PArr) (b : Fin 16) (j : Fin 102) (d : Fin 8192) : EReal :=
  if h0 : j.val = 0 then f (ix3 b (0 : Fin 1) d)
  else if h1 : j.val < 101 then x (ix3 b (⟨j.val - 1, by omega⟩ : Fin 100) d)
  else g (ix3 b (0 : Fin 1) d)

/-- A row times a projection matrix, at projected feature `p`. -/
def proj (r : Fin 8192 → EReal) (w : WArr) (p : Fin 100) : EReal := ∑ d : Fin 8192, r d * w (ix2 d p)

/-- Tap `u` of window `s` is padded row `s + u`. -/
def tap (s : Fin 100) (u : Fin 3) : Fin 102 := ⟨s.val + u.val, by omega⟩

section
variable (x : XArr) (wq wk wv : WArr) (f g : PArr) (b : Fin 16) (s : Fin 100)

/-- The centre row's query against tap `u`'s key. -/
def score (u : Fin 3) : EReal :=
  ∑ p : Fin 100, proj (prow x f g b (tap s 1)) wq p * proj (prow x f g b (tap s u)) wk p

/-- The largest of the three scores. -/
def smax : EReal := max (max (score x wq wk f g b s 0) (score x wq wk f g b s 1)) (score x wq wk f g b s 2)

/-- The unnormalized soft-max weight of tap `u`. -/
def ew (u : Fin 3) : EReal := Ideal.exp (score x wq wk f g b s u - smax x wq wk f g b s)

/-- The soft-max denominator. -/
def den : EReal := ew x wq wk f g b s 0 + ew x wq wk f g b s 1 + ew x wq wk f g b s 2

/-- Tap `u`'s value at projected feature `p`. -/
def tval (u : Fin 3) (p : Fin 100) : EReal := proj (prow x f g b (tap s u)) wv p

end

/-- The attention output, each value weighted by its normalized soft-max weight. -/
def attend (x : XArr) (wq wk wv : WArr) (f g : PArr) : OArr := fun i =>
  Ideal.div (ew x wq wk f g (i 0) (i 1) 0) (den x wq wk f g (i 0) (i 1)) * tval x wv f g (i 0) (i 1) 0 (i 2)
  + Ideal.div (ew x wq wk f g (i 0) (i 1) 1) (den x wq wk f g (i 0) (i 1)) * tval x wv f g (i 0) (i 1) 1 (i 2)
  + Ideal.div (ew x wq wk f g (i 0) (i 1) 2) (den x wq wk f g (i 0) (i 1)) * tval x wv f g (i 0) (i 1) 2 (i 2)

/-- The same with one division: the weighted values summed, then divided by the denominator. -/
def attendK (x : XArr) (wq wk wv : WArr) (f g : PArr) : OArr := fun i =>
  Ideal.div
    (ew x wq wk f g (i 0) (i 1) 0 * tval x wv f g (i 0) (i 1) 0 (i 2)
      + ew x wq wk f g (i 0) (i 1) 1 * tval x wv f g (i 0) (i 1) 1 (i 2)
      + ew x wq wk f g (i 0) (i 1) 2 * tval x wv f g (i 0) (i 1) 2 (i 2))
    (den x wq wk f g (i 0) (i 1))

/-- Every entry of an array is a real number. -/
def AllReal {ι : Type} (a : ι → EReal) : Prop := ∀ i, ∃ r : ℝ, a i = (r : EReal)

end Cert.Attn

end
-- ==== Proof.AttnBlock.lean ====
/-
  One grid point of the kernel, as a function of the four blocks it loads: the sequence block `xb` (the 200 rows of
  two consecutive batches, 8192 features), the fused weight matrix `W` (8192 by 384: the query, key and value
  projections side by side, each padded from 100 to 128 columns), and the two pad blocks `fb`, `gb` (the two
  batches' forward and backward pad rows). Row `r` of the output block belongs to batch `r / 100` of the pair, at
  position `r % 100`; lane `l` (0..127) is a projected feature (lanes 100..127 are padding).

  `brow` is the pair's padded sequence (102 rows per batch), `bproj` a row times one column of `W`; the scores,
  their maximum, the soft-max weights, the denominator and the tap values are as in the whole-array function
  (`Cert.Attn`), with the inner products running over all 128 lanes of the query and key column groups.
  `Wfused` is the fused matrix as a function of the three projection matrices: column `col` belongs to group
  `col / 128` (0 query, 1 key, 2 value) at lane `col % 128`, zero on the padding lanes.
-/
import proofs.«418362_j13082470384196_3_alg».proof.Proof.AttnSpec

noncomputable section

open scoped BigOperators

namespace Cert.Attn

open Idealize.ShloMosaic Idealize.ShloMosaic.ValueIdx

/-- A sequence block: 200 rows (two batches), 8192 features. -/
abbrev XBlk := (⟨2, ![200, 8192]⟩ : Shape).Idx → EReal
/-- The fused, lane-padded weight matrix. -/
abbrev WBlk := (⟨2, ![8192, 384]⟩ : Shape).Idx → EReal
/-- A pad block: two batches, one row each. -/
abbrev PBlk := (⟨3, ![2, 1, 8192]⟩ : Shape).Idx → EReal
/-- An output block: 200 rows, 128 lanes. -/
abbrev OBlk := (⟨2, ![200, 128]⟩ : Shape).Idx → EReal

/-- Row `j` (0..101) of the padded sequence of batch `bi` of the pair. -/
def brow (xb : XBlk) (fb gb : PBlk) (bi : Fin 2) (j : Fin 102) (d : Fin 8192) : EReal :=
  if h0 : j.val = 0 then fb (ix3 bi (0 : Fin 1) d)
  else if h1 : j.val < 101 then xb (ix2 (⟨100 * bi.val + (j.val - 1), by omega⟩ : Fin 200) d)
  else gb (ix3 bi (0 : Fin 1) d)

/-- A row times column `col` of the fused matrix. -/
def bproj (r : Fin 8192 → EReal) (W : WBlk) (col : Fin 384) : EReal := ∑ d : Fin 8192, r d * W (ix2 d col)

section
variable (xb : XBlk) (W : WBlk) (fb gb : PBlk) (bi : Fin 2) (s : Fin 100)

/-- The centre row's query against tap `u`'s key, over all 128 lanes. -/
def bscore (u : Fin 3) : EReal :=
  ∑ l : Fin 128, bproj (brow xb fb gb bi (tap s 1)) W (⟨l.val, by omega⟩ : Fin 384)
    * bproj (brow xb fb gb bi (tap s u)) W (⟨128 + l.val, by omega⟩ : Fin 384)

def bmax : EReal := max (max (bscore xb W fb gb bi s 0) (bscore xb W fb gb bi s 1)) (bscore xb W fb gb bi s 2)

def bew (u : Fin 3) : EReal := Ideal.exp (bscore xb W fb gb bi s u - bmax xb W fb gb bi s)

def bden : EReal := bew xb W fb gb bi s 0 + bew xb W fb gb bi s 1 + bew xb W fb gb bi s 2

/-- Tap `u`'s value at lane `l`. -/
def bval (u : Fin 3) (l : Fin 128) : EReal := bproj (brow xb fb gb bi (tap s u)) W (⟨256 + l.val, by omega⟩ : Fin 384)

end

/-- Which batch of the pair row `r` of a block belongs to, -/
def pairB (r : Fin 200) : Fin 2 := ⟨r.val / 100, by have := r.isLt; omega⟩
/-- and its position in that batch's sequence. -/
def pairS (r : Fin 200) : Fin 100 := ⟨r.val % 100, Nat.mod_lt _ (by decide)⟩

/-- The output block of one grid point at row `r`, lane `l`: the soft-max-weighted tap values summed, then divided once. -/
def blkAttnAt (xb : XBlk) (W : WBlk) (fb gb : PBlk) (r : Fin 200) (l : Fin 128) : EReal :=
  Ideal.div
    (bew xb W fb gb (pairB r) (pairS r) 0 * bval xb W fb gb (pairB r) (pairS r) 0 l
      + bew xb W fb gb (pairB r) (pairS r) 1 * bval xb W fb gb (pairB r) (pairS r) 1 l
      + bew xb W fb gb (pairB r) (pairS r) 2 * bval xb W fb gb (pairB r) (pairS r) 2 l)
    (bden xb W fb gb (pairB r) (pairS r))

/-- The output block of one grid point. -/
def blkAttn (xb : XBlk) (W : WBlk) (fb gb : PBlk) : OBlk := fun y => blkAttnAt xb W fb gb (y 0) (y 1)

/-- The fused matrix from the three projection matrices: group `col / 128` at lane `col % 128`, zero on the padding lanes. -/
def WfusedAt (wq wk wv : WArr) (d : Fin 8192) (col : Fin 384) : EReal :=
  if h : col.val % 128 < 100 then
    (if col.val / 128 = 0 then wq else if col.val / 128 = 1 then wk else wv) (ix2 d (⟨col.val % 128, h⟩ : Fin 100))
  else 0

/-- The fused matrix as an array. -/
def Wfused (wq wk wv : WArr) : WBlk := fun y => WfusedAt wq wk wv (y 0) (y 1)

end Cert.Attn

end
-- ==== Proof.AttnBlockLaw.lean ====
/-
  One grid point's output block, read at the blocks the grid point really loads, is the whole-array function at the
  block's place: grid point `t` handles batches `2t` and `2t+1`; row `r` of its block is batch `2t + r / 100`,
  position `r % 100`; the inner products over 128 lanes are those over the 100 real features, the fused matrix being
  zero on the padding lanes.
-/
import proofs.«418362_j13082470384196_3_alg».proof.Proof.AttnBlock

noncomputable section

open scoped BigOperators

namespace Cert.Attn

open Idealize.ShloMosaic Idealize.ShloMosaic.ValueIdx

/-- Batch `a` of the pair grid point `t` handles. -/
def batchOf (t : Fin 8) (a : Fin 2) : Fin 16 := ⟨2 * t.val + a.val, by have := t.isLt; have := a.isLt; omega⟩

/-- Block row `100 * bi + k` (with `k < 100`) belongs to batch `bi` of the pair, -/
theorem pairB_mk (bi : Fin 2) (k : Nat) (hk : k < 100) (h : 100 * bi.val + k < 200) :
    pairB (⟨100 * bi.val + k, h⟩ : Fin 200) = bi := by
  apply Fin.ext
  show (100 * bi.val + k) / 100 = bi.val
  omega

/-- at position `k` of that batch's sequence. -/
theorem pairS_mk (bi : Fin 2) (k : Nat) (hk : k < 100) (h : 100 * bi.val + k < 200) :
    pairS (⟨100 * bi.val + k, h⟩ : Fin 200) = (⟨k, hk⟩ : Fin 100) := by
  apply Fin.ext
  show (100 * bi.val + k) % 100 = k
  omega

/-- The padded sequence of batch `bi` of the pair is the padded sequence of batch `2t + bi` of the whole array:
    the same three cases (forward pad, a row of `x`, backward pad), the middle one through the block row
    `100 * bi + (j - 1)`, which is batch `bi`, position `j - 1`. -/
theorem brow_eq_prow (x : XArr) (f g : PArr) (t : Fin 8) (xb : XBlk) (fb gb : PBlk)
    (hx : ∀ (r : Fin 200) (d : Fin 8192), xb (ix2 r d) = x (ix3 (batchOf t (pairB r)) (pairS r) d))
    (hf : ∀ (a : Fin 2) (d : Fin 8192), fb (ix3 a (0 : Fin 1) d) = f (ix3 (batchOf t a) (0 : Fin 1) d))
    (hg : ∀ (a : Fin 2) (d : Fin 8192), gb (ix3 a (0 : Fin 1) d) = g (ix3 (batchOf t a) (0 : Fin 1) d))
    (bi : Fin 2) (j : Fin 102) :
    brow xb fb gb bi j = prow x f g (batchOf t bi) j := by
  funext d
  unfold brow prow
  by_cases h0 : j.val = 0
  · rw [dif_pos h0, dif_pos h0]
    exact hf bi d
  · by_cases h1 : j.val < 101
    · rw [dif_neg h0, dif_pos h1, dif_neg h0, dif_pos h1, hx,
        pairB_mk bi (j.val - 1) (by omega), pairS_mk bi (j.val - 1) (by omega)]
    · rw [dif_neg h0, dif_neg h1, dif_neg h0, dif_neg h1]
      exact hg bi d

/-- A row times a real column of the fused matrix is the row times the column's own projection matrix: column
    `col` with `col % 128 = p < 100` is column `p` of the matrix of group `col / 128`. -/
theorem bproj_eq_proj (row : Fin 8192 → EReal) (wq wk wv : WArr) (W : WBlk)
    (hW : ∀ (d : Fin 8192) (col : Fin 384), W (ix2 d col) = WfusedAt wq wk wv d col)
    (col : Fin 384) (w : WArr) (p : Fin 100) (hp : col.val % 128 = p.val)
    (hw : (if col.val / 128 = 0 then wq else if col.val / 128 = 1 then wk else wv) = w) :
    bproj row W col = proj row w p := by
  unfold bproj proj
  refine Finset.sum_congr rfl (fun d _ => ?_)
  have hlt : col.val % 128 < 100 := by have := p.isLt; omega
  have hp' : (⟨col.val % 128, hlt⟩ : Fin 100) = p := Fin.ext hp
  rw [hW, WfusedAt, dif_pos hlt, hw, hp']

/-- Lane `l < 100` of the query group. -/
theorem bproj_query (row : Fin 8192 → EReal) (wq wk wv : WArr) (W : WBlk)
    (hW : ∀ (d : Fin 8192) (col : Fin 384), W (ix2 d col) = WfusedAt wq wk wv d col)
    (l : Fin 128) (hl : l.val < 100) :
    bproj row W (⟨l.val, by omega⟩ : Fin 384) = proj row wq (⟨l.val, hl⟩ : Fin 100) := by
  refine bproj_eq_proj row wq wk wv W hW _ wq _ ?_ ?_
  · show l.val % 128 = l.val
    omega
  · have h : (⟨l.val, by omega⟩ : Fin 384).val / 128 = 0 := by
      show l.val / 128 = 0
      omega
    rw [if_pos h]

/-- Lane `l < 100` of the key group. -/
theorem bproj_key (row : Fin 8192 → EReal) (wq wk wv : WArr) (W : WBlk)
    (hW : ∀ (d : Fin 8192) (col : Fin 384), W (ix2 d col) = WfusedAt wq wk wv d col)
    (l : Fin 128) (hl : l.val < 100) :
    bproj row W (⟨128 + l.val, by omega⟩ : Fin 384) = proj row wk (⟨l.val, hl⟩ : Fin 100) := by
  refine bproj_eq_proj row wq wk wv W hW _ wk _ ?_ ?_
  · show (128 + l.val) % 128 = l.val
    omega
  · have h : (⟨128 + l.val, by omega⟩ : Fin 384).val / 128 = 1 := by
      show (128 + l.val) / 128 = 1
      omega
    rw [if_neg (by rw [h]; decide), if_pos h]

/-- Lane `l < 100` of the value group. -/
theorem bproj_value (row : Fin 8192 → EReal) (wq wk wv : WArr) (W : WBlk)
    (hW : ∀ (d : Fin 8192) (col : Fin 384), W (ix2 d col) = WfusedAt wq wk wv d col)
    (l : Fin 128) (hl : l.val < 100) :
    bproj row W (⟨256 + l.val, by omega⟩ : Fin 384) = proj row wv (⟨l.val, hl⟩ : Fin 100) := by
  refine bproj_eq_proj row wq wk wv W hW _ wv _ ?_ ?_
  · show (256 + l.val) % 128 = l.val
    omega
  · have h : (⟨256 + l.val, by omega⟩ : Fin 384).val / 128 = 2 := by
      show (256 + l.val) / 128 = 2
      omega
    rw [if_neg (by rw [h]; decide), if_neg (by rw [h]; decide)]

/-- A row times a padding column of the fused matrix is zero: every term is `row d * 0`. -/
theorem bproj_pad (row : Fin 8192 → EReal) (wq wk wv : WArr) (W : WBlk)
    (hW : ∀ (d : Fin 8192) (col : Fin 384), W (ix2 d col) = WfusedAt wq wk wv d col)
    (col : Fin 384) (hc : 100 ≤ col.val % 128) :
    bproj row W col = 0 := by
  unfold bproj
  refine Finset.sum_eq_zero (fun d _ => ?_)
  rw [hW, WfusedAt, dif_neg (by omega), mul_zero]

/-- A sum over the 128 lanes whose terms vanish on the 28 padding lanes is the sum over the 100 real lanes. -/
theorem sum_lanes (F : Fin 128 → EReal) (G : Fin 100 → EReal)
    (hreal : ∀ (l : Fin 128) (h : l.val < 100), F l = G (⟨l.val, h⟩ : Fin 100))
    (hpad : ∀ l : Fin 128, 100 ≤ l.val → F l = 0) :
    ∑ l : Fin 128, F l = ∑ p : Fin 100, G p := by
  have hsplit : ∑ l : Fin 128, F l
      = ∑ i : Fin 100, F (Fin.castAdd 28 i) + ∑ i : Fin 28, F (Fin.natAdd 100 i) :=
    Fin.sum_univ_add (a := 100) (b := 28) F
  have hzero : ∑ i : Fin 28, F (Fin.natAdd 100 i) = 0 :=
    Finset.sum_eq_zero (fun i _ => hpad _ (by show 100 ≤ 100 + i.val; omega))
  rw [hsplit, hzero, add_zero]
  exact Finset.sum_congr rfl (fun i _ => hreal (Fin.castAdd 28 i) i.isLt)

section
variable (x : XArr) (wq wk wv : WArr) (f g : PArr) (t : Fin 8) (xb : XBlk) (W : WBlk) (fb gb : PBlk)
  (hx : ∀ (r : Fin 200) (d : Fin 8192), xb (ix2 r d) = x (ix3 (batchOf t (pairB r)) (pairS r) d))
  (hW : ∀ (d : Fin 8192) (col : Fin 384), W (ix2 d col) = WfusedAt wq wk wv d col)
  (hf : ∀ (a : Fin 2) (d : Fin 8192), fb (ix3 a (0 : Fin 1) d) = f (ix3 (batchOf t a) (0 : Fin 1) d))
  (hg : ∀ (a : Fin 2) (d : Fin 8192), gb (ix3 a (0 : Fin 1) d) = g (ix3 (batchOf t a) (0 : Fin 1) d))
  (bi : Fin 2) (s : Fin 100)
include hx hW hf hg

/-- The block's score over 128 lanes is the whole-array score over the 100 features: on a real lane the query and
    key columns are those of `wq` and `wk`; on a padding lane the term is `0 * 0`. -/
theorem bscore_eq_score (u : Fin 3) :
    bscore xb W fb gb bi s u = score x wq wk f g (batchOf t bi) s u := by
  unfold bscore score
  rw [brow_eq_prow x f g t xb fb gb hx hf hg bi (tap s 1), brow_eq_prow x f g t xb fb gb hx hf hg bi (tap s u)]
  refine sum_lanes _ _ (fun l h => ?_) (fun l h => ?_)
  · beta_reduce
    rw [bproj_query _ wq wk wv W hW l h, bproj_key _ wq wk wv W hW l h]
  · beta_reduce
    rw [bproj_pad _ wq wk wv W hW (⟨l.val, by omega⟩ : Fin 384) (by show 100 ≤ l.val % 128; omega), zero_mul]

theorem bmax_eq_smax : bmax xb W fb gb bi s = smax x wq wk f g (batchOf t bi) s := by
  unfold bmax smax
  rw [bscore_eq_score x wq wk wv f g t xb W fb gb hx hW hf hg bi s 0,
    bscore_eq_score x wq wk wv f g t xb W fb gb hx hW hf hg bi s 1,
    bscore_eq_score x wq wk wv f g t xb W fb gb hx hW hf hg bi s 2]

theorem bew_eq_ew (u : Fin 3) : bew xb W fb gb bi s u = ew x wq wk f g (batchOf t bi) s u := by
  unfold bew ew
  rw [bscore_eq_score x wq wk wv f g t xb W fb gb hx hW hf hg bi s u,
    bmax_eq_smax x wq wk wv f g t xb W fb gb hx hW hf hg bi s]

theorem bden_eq_den : bden xb W fb gb bi s = den x wq wk f g (batchOf t bi) s := by
  unfold bden den
  rw [bew_eq_ew x wq wk wv f g t xb W fb gb hx hW hf hg bi s 0,
    bew_eq_ew x wq wk wv f g t xb W fb gb hx hW hf hg bi s 1,
    bew_eq_ew x wq wk wv f g t xb W fb gb hx hW hf hg bi s 2]

/-- A tap's value at a real lane is the whole-array tap value at that feature. -/
theorem bval_eq_tval (u : Fin 3) (l : Fin 128) (hl : l.val < 100) :
    bval xb W fb gb bi s u l = tval x wv f g (batchOf t bi) s u (⟨l.val, hl⟩ : Fin 100) := by
  unfold bval tval
  rw [brow_eq_prow x f g t xb fb gb hx hf hg bi (tap s u)]
  exact bproj_value _ wq wk wv W hW l hl

end

theorem blkAttnAt_eq_attendK (x : XArr) (wq wk wv : WArr) (f g : PArr) (t : Fin 8)
    (xb : XBlk) (W : WBlk) (fb gb : PBlk)
    (hx : ∀ (r : Fin 200) (d : Fin 8192), xb (ix2 r d) = x (ix3 (batchOf t (pairB r)) (pairS r) d))
    (hW : ∀ (d : Fin 8192) (col : Fin 384), W (ix2 d col) = WfusedAt wq wk wv d col)
    (hf : ∀ (a : Fin 2) (d : Fin 8192), fb (ix3 a (0 : Fin 1) d) = f (ix3 (batchOf t a) (0 : Fin 1) d))
    (hg : ∀ (a : Fin 2) (d : Fin 8192), gb (ix3 a (0 : Fin 1) d) = g (ix3 (batchOf t a) (0 : Fin 1) d))
    (r : Fin 200) (l : Fin 128) (hl : l.val < 100) :
    blkAttnAt xb W fb gb r l
      = attendK x wq wk wv f g (ix3 (batchOf t (pairB r)) (pairS r) (⟨l.val, hl⟩ : Fin 100)) := by
  unfold blkAttnAt
  rw [bew_eq_ew x wq wk wv f g t xb W fb gb hx hW hf hg (pairB r) (pairS r) 0,
    bew_eq_ew x wq wk wv f g t xb W fb gb hx hW hf hg (pairB r) (pairS r) 1,
    bew_eq_ew x wq wk wv f g t xb W fb gb hx hW hf hg (pairB r) (pairS r) 2,
    bval_eq_tval x wq wk wv f g t xb W fb gb hx hW hf hg (pairB r) (pairS r) 0 l hl,
    bval_eq_tval x wq wk wv f g t xb W fb gb hx hW hf hg (pairB r) (pairS r) 1 l hl,
    bval_eq_tval x wq wk wv f g t xb W fb gb hx hW hf hg (pairB r) (pairS r) 2 l hl,
    bden_eq_den x wq wk wv f g t xb W fb gb hx hW hf hg (pairB r) (pairS r)]
  rfl

end Cert.Attn

end
-- ==== Proof.KVPoints.lean ====
/-
  The grid's points as numbers: the grid has eight points, point `t` handling batches `2t` and `2t + 1`.
-/
import proofs.«418362_j13082470384196_3_alg».proof.Proof.KIFrame
import proofs.«418362_j13082470384196_3_alg».proof.Proof.AttnBlockLaw
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem Cert.Attn
open Idealize.ShloMosaic.Pipeline (Dat Cfg Window)

variable (m : (ℓ : Loc nD τ sig) → Buf (Elt Ideal) ℓ)

/-- A grid point as a number below eight. -/
def pt8 (t : Fin cfg0.N) : Fin 8 := ⟨t.val, Nat.lt_of_lt_of_eq t.isLt N_0⟩

end Cert.KernelIdeal.Val

end
-- ==== Proof.KVSeqPads.lean ====
/-
  What the sequence window and the two pad windows hold at grid point `t`, in terms of the argument arrays. The
  sequence array is flattened to 1600 rows before the region (row `100 b + s` is batch `b`, position `s`) and the
  window's block at point `t` is rows `200 t .. 200 t + 199`: row `r` of the block is batch `2t + r / 100`,
  position `r % 100`. A pad window's block at point `t` is the pad rows of batches `2t` and `2t + 1`.
-/
import proofs.«418362_j13082470384196_3_alg».proof.Proof.KVPoints
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem Cert.Attn
open Idealize.ShloMosaic.Pipeline (Dat Cfg Window)

variable (m : (ℓ : Loc nD τ sig) → Buf (Elt Ideal) ℓ)

/-! ## The index maps over the grid -/

/-- The sequence window's block index at point `t` is `(t, 0)`. -/
theorem idxX : ∀ t : Fin cfg0.N, win0_0.index t (0 : Fin 2) = t.val ∧ win0_0.index t (1 : Fin 2) = 0 :=
  (by decide +kernel : ∀ t : Fin grid0.N, _)

/-- The forward pad window's block index at point `t` is `(t, 0, 0)`. -/
theorem idxF : ∀ t : Fin cfg0.N, win0_1.index t (0 : Fin 3) = t.val ∧ win0_1.index t (1 : Fin 3) = 0
    ∧ win0_1.index t (2 : Fin 3) = 0 :=
  (by decide +kernel : ∀ t : Fin grid0.N, _)

/-- The backward pad window's block index at point `t` is `(t, 0, 0)`. -/
theorem idxG : ∀ t : Fin cfg0.N, win0_2.index t (0 : Fin 3) = t.val ∧ win0_2.index t (1 : Fin 3) = 0
    ∧ win0_2.index t (2 : Fin 3) = 0 :=
  (by decide +kernel : ∀ t : Fin grid0.N, _)

/-! ## The flattened sequence array -/

/-- The sequence array as the region finds it: the argument array flattened to 1600 rows. -/
theorem seq_flat (c : Dev nD) :
    (V m c main_v4 : S1600x8192.Idx → EReal)
      = shapeCast S1600x8192 (m ((c.tc : Thread nD τ).loc main_arg0) : S16x100x8192.Idx → EReal)
          shapeCasts_S16x100x8192_S1600x8192 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- Row `100 b + s` of the flattened array is batch `b`, position `s`: both have row-major position
    `(100 b + s) * 8192 + d`. -/
theorem flat_apply (x : S16x100x8192.Idx → EReal) (R : Fin 1600) (b : Fin 16) (s : Fin 100) (d : Fin 8192)
    (hR : R.val = 100 * b.val + s.val) :
    shapeCast S1600x8192 x shapeCasts_S16x100x8192_S1600x8192 (ix2 R d) = x (ix3 b s d) :=
  shapeCast_apply x shapeCasts_S16x100x8192_S1600x8192 (ix2 R d) (ix3 b s d) (by
    rw [Shape.rowMajor_val_three, Shape.rowMajor_val_two]
    show (b.val * 100 + s.val) * 8192 + d.val = R.val * 8192 + d.val
    rw [hR, Nat.mul_comm 100 b.val])

/-! ## The three blocks -/

/-- The sequence block at point `t`. -/
theorem xblk_apply (c : Dev nD) (t : Fin cfg0.N) (r : Fin 200) (d : Fin 8192) :
    iblk (F := Ideal) m c 0 t (ix2 r d)
      = m ((c.tc : Thread nD τ).loc main_arg0) (ix3 (batchOf (pt8 t) (pairB r)) (pairS r) d) := by
  have ht : t.val < 8 := (pt8 t).isLt
  have hr : r.val < 200 := r.isLt
  obtain ⟨e0, e1⟩ := idxX t
  -- row `r` of the block at point `t` is row `200 t + r` of the flattened array
  have hemb : ((cfg0.win 0).blk t).view.emb (ix2 r d) = ix2 (⟨200 * t.val + r.val, by omega⟩ : Fin 1600) d := by
    funext k; apply Fin.ext
    match k with
    | ⟨0, _⟩ =>
      show win0_0.index t (0 : Fin 2) * 200 + 1 * r.val = 200 * t.val + r.val
      omega
    | ⟨1, _⟩ =>
      show win0_0.index t (1 : Fin 2) * 8192 + 1 * d.val = d.val
      omega
  unfold iblk
  rw [View.read_apply]
  show V m c main_v4 (((cfg0.win 0).blk t).view.emb (ix2 r d)) = _
  rw [hemb, seq_flat]
  -- `200 t + r = 100 (2 t + r / 100) + r % 100`
  exact flat_apply _ _ (batchOf (pt8 t) (pairB r)) (pairS r) d (by
    show 200 * t.val + r.val = 100 * (2 * t.val + r.val / 100) + r.val % 100
    omega)

/-- The forward pad block at point `t`. -/
theorem fblk_apply (c : Dev nD) (t : Fin cfg0.N) (a : Fin 2) (d : Fin 8192) :
    iblk (F := Ideal) m c 1 t (ix3 a (0 : Fin 1) d)
      = m ((c.tc : Thread nD τ).loc main_arg4) (ix3 (batchOf (pt8 t) a) (0 : Fin 1) d) := by
  obtain ⟨e0, e1, e2⟩ := idxF t
  unfold iblk
  rw [View.read_apply]
  show V m c main_arg4 (((cfg0.win 1).blk t).view.emb (ix3 a (0 : Fin 1) d)) = _
  rw [V_main_arg4]
  -- row `a` of the block at point `t` is row `2 t + a` of the pad array
  refine congrArg (m ((c.tc : Thread nD τ).loc main_arg4)) ?_
  funext k; apply Fin.ext
  match k with
  | ⟨0, _⟩ =>
    show win0_1.index t (0 : Fin 3) * 2 + 1 * a.val = 2 * t.val + a.val
    omega
  | ⟨1, _⟩ =>
    show win0_1.index t (1 : Fin 3) * 1 + 1 * (0 : Fin 1).val = (0 : Fin 1).val
    rw [e1]; rfl
  | ⟨2, _⟩ =>
    show win0_1.index t (2 : Fin 3) * 8192 + 1 * d.val = d.val
    omega

/-- The backward pad block at point `t`. -/
theorem gblk_apply (c : Dev nD) (t : Fin cfg0.N) (a : Fin 2) (d : Fin 8192) :
    iblk (F := Ideal) m c 2 t (ix3 a (0 : Fin 1) d)
      = m ((c.tc : Thread nD τ).loc main_arg5) (ix3 (batchOf (pt8 t) a) (0 : Fin 1) d) := by
  obtain ⟨e0, e1, e2⟩ := idxG t
  unfold iblk
  rw [View.read_apply]
  show V m c main_arg5 (((cfg0.win 2).blk t).view.emb (ix3 a (0 : Fin 1) d)) = _
  rw [V_main_arg5]
  -- row `a` of the block at point `t` is row `2 t + a` of the pad array
  refine congrArg (m ((c.tc : Thread nD τ).loc main_arg5)) ?_
  funext k; apply Fin.ext
  match k with
  | ⟨0, _⟩ =>
    show win0_2.index t (0 : Fin 3) * 2 + 1 * a.val = 2 * t.val + a.val
    omega
  | ⟨1, _⟩ =>
    show win0_2.index t (1 : Fin 3) * 1 + 1 * (0 : Fin 1).val = (0 : Fin 1).val
    rw [e1]; rfl
  | ⟨2, _⟩ =>
    show win0_2.index t (2 : Fin 3) * 8192 + 1 * d.val = d.val
    omega

end Cert.KernelIdeal.Val

end
-- ==== Proof.LibNary3.lean ====
/-
  A general lemma about the host-operation builders: the result of an operation over a LITERAL family of THREE operand
  references (a three-piece concatenate), with each operand's contents read at its own reference, so that a fold of
  operation results goes on rewriting the operands' contents. The library states the same for four references.
-/
import Idealize.ShloMosaic.Lib.StableHlo.Run

namespace Idealize.ShloMosaic.StableHlo

open Idealize.ShloMosaic Idealize.SL.Sem

variable {τ : Topo} {sig : RefSig} {Val : EltTy → Type}

/-- The result of an operation over three literal operand references: its function applied to the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a single simplification pass over a fold uses. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.KVWeights.lean ====
/-
  What the weight window holds at every grid point: the fused matrix of the three projection matrices. Before the
  region each projection matrix is padded with 28 zero columns (100 to 128) and the three are laid side by side; the
  window's one block is the whole 8192 by 384 matrix.
-/
import proofs.«418362_j13082470384196_3_alg».proof.Proof.KVPoints
import proofs.«418362_j13082470384196_3_alg».proof.Proof.LibNary3
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem Cert.Attn
open Idealize.ShloMosaic.Pipeline (Dat Cfg Window)

variable (m : (ℓ : Loc nD τ sig) → Buf (Elt Ideal) ℓ)

/-! ## The block is the whole array -/

/-- The weight window's block index is (0, 0) at every grid point. -/
theorem idxW : ∀ t : Fin cfg0.N, win0_3.index t (0 : Fin 2) = 0 ∧ win0_3.index t (1 : Fin 2) = 0 :=
  (by decide +kernel : ∀ t : Fin grid0.N, _)

/-- The block has the array's size and sits at block index (0, 0): entry (d, col) of the block is entry (d, col) of
    the fused array as the region finds it. -/
theorem wblk_whole (c : Dev nD) (t : Fin cfg0.N) (d : Fin 8192) (col : Fin 384) :
    iblk (F := Ideal) m c 3 t (ix2 d col) = V m c main_v3 (ix2 d col) := by
  unfold iblk
  show V m c main_v3 (((cfg0.win 3).blk t).view.emb (ix2 d col)) = V m c main_v3 (ix2 d col)
  refine congrArg (V m c main_v3) (funext fun a => Fin.ext ?_)
  obtain ⟨e0, e1⟩ := idxW t
  match a with
  | ⟨0, _⟩ => show win0_3.index t (0 : Fin 2) * 8192 + 1 * d.val = d.val; omega
  | ⟨1, _⟩ => show win0_3.index t (1 : Fin 2) * 384 + 1 * col.val = col.val; omega

/-! ## The fused array as the host operations leave it -/

/-- The fused array when the region is entered: the three projection matrices, each padded on the right of its column
    axis with 28 copies of the converted integer zero, laid side by side along the column axis. -/
theorem v3_eq (c : Dev nD) :
    (V m c main_v3 : S8192x384.Idx → EReal)
      = concatenate S8192x384 1
          [⟨S8192x128, pad S8192x128 ![0, 0] ![0, 28] ![0, 0] (m ((c.tc : Thread nD τ).loc main_arg1))
              (sitofp (F := Ideal) .f32 (constantI S_ 32 0#32)) pads_S8192x100_S8192x128_000_0280 h_S_⟩,
           ⟨S8192x128, pad S8192x128 ![0, 0] ![0, 28] ![0, 0] (m ((c.tc : Thread nD τ).loc main_arg2))
              (sitofp (F := Ideal) .f32 (constantI S_ 32 0#32)) pads_S8192x100_S8192x128_000_0280 h_S_⟩,
           ⟨S8192x128, pad S8192x128 ![0, 0] ![0, 28] ![0, 0] (m ((c.tc : Thread nD τ).loc main_arg3))
              (sitofp (F := Ideal) .f32 (constantI S_ 32 0#32)) pads_S8192x100_S8192x128_000_0280 h_S_⟩]
          concatenates_S8192x128_S8192x128_S8192x128_S8192x384_d1 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-! ## The padded matrices and their concatenation, read at an index -/

/-- The pad value: the integer zero converted is the real zero. -/
theorem padval_zero (i : S_.Idx) : (sitofp (F := Ideal) .f32 (constantI S_ 32 0#32) : S_.Idx → EReal) i = 0 := by
  show (FloatOps.sitofp (F := Ideal) .f32 (0#32 : BitVec 32) : EReal) = 0
  exact sitofp_zero

/-- A projection matrix padded with 28 columns of a zero value, read at column `l` of row `d`: the matrix below column
    100, zero from there on. -/
theorem padw_apply (w : S8192x100.Idx → EReal) (z : S_.Idx → EReal) (hz : ∀ i, z i = 0) (d : Fin 8192) (l : Fin 128) :
    pad S8192x128 ![0, 0] ![0, 28] ![0, 0] w z pads_S8192x100_S8192x128_000_0280 h_S_ (ix2 d l)
      = if h : l.val < 100 then w (ix2 d (⟨l.val, h⟩ : Fin 100)) else 0 := by
  by_cases h : l.val < 100
  · rw [dif_pos h]
    refine pad_apply_of_inside _ _ _ w z pads_S8192x100_S8192x128_000_0280 h_S_ (ix2 d l) (ix2 d (⟨l.val, h⟩ : Fin 100)) ?_
    intro a
    match a with
    | ⟨0, _⟩ => show d.val = 0 + d.val * (0 + 1); omega
    | ⟨1, _⟩ => show l.val = 0 + l.val * (0 + 1); omega
  · rw [dif_neg h]
    refine (pad_apply_of_not_inside _ _ _ w z pads_S8192x100_S8192x128_000_0280 h_S_ (ix2 d l) (1 : Fin 2) ?_).trans (hz _)
    show ¬(0 ≤ l.val ∧ (l.val - 0) % 1 = 0 ∧ (l.val - 0) / 1 < 100)
    omega

/-- Three matrices of 128 columns side by side, read at column `col` of row `d`: matrix `col / 128` at column
    `col % 128`. -/
theorem cat3_apply (x0 x1 x2 : S8192x128.Idx → EReal) (d : Fin 8192) (col : Fin 384) :
    concatenate S8192x384 1 [⟨S8192x128, x0⟩, ⟨S8192x128, x1⟩, ⟨S8192x128, x2⟩]
        concatenates_S8192x128_S8192x128_S8192x128_S8192x384_d1 (ix2 d col)
      = (if col.val / 128 = 0 then x0 else if col.val / 128 = 1 then x1 else x2)
          (ix2 d (⟨col.val % 128, Nat.mod_lt _ (by decide)⟩ : Fin 128)) := by
  have hc : col.val < 384 := col.isLt
  have hi : ∀ b : Fin S8192x128.rank, b.cast (rfl : S8192x128.rank = S8192x384.rank) ≠ (1 : Fin 2) →
      ((ix2 d (⟨col.val % 128, Nat.mod_lt _ (by decide)⟩ : Fin 128) : S8192x128.Idx) b).val
        = ((ix2 d col : S8192x384.Idx) (b.cast rfl)).val := by
    intro b hb
    match b with
    | ⟨0, _⟩ => rfl
    | ⟨1, _⟩ => exact absurd rfl hb
  rcases (by omega : col.val / 128 = 0 ∨ col.val / 128 = 1 ∨ col.val / 128 = 2) with h | h | h
  · rw [if_pos h]
    refine concatenate_apply_piece (t := S8192x384) (1 : Fin 2) [⟨S8192x128, x0⟩, ⟨S8192x128, x1⟩, ⟨S8192x128, x2⟩]
      concatenates_S8192x128_S8192x128_S8192x128_S8192x384_d1 (ix2 d col) 0 (by show (0 : Nat) < 3; omega)
      S8192x128 x0 rfl rfl 0 rfl _ hi ?_
    show 0 + col.val % 128 = col.val
    omega
  · rw [if_neg (by omega : ¬col.val / 128 = 0), if_pos h]
    refine concatenate_apply_piece (t := S8192x384) (1 : Fin 2) [⟨S8192x128, x0⟩, ⟨S8192x128, x1⟩, ⟨S8192x128, x2⟩]
      concatenates_S8192x128_S8192x128_S8192x128_S8192x384_d1 (ix2 d col) 1 (by show (1 : Nat) < 3; omega)
      S8192x128 x1 rfl rfl 128 rfl _ hi ?_
    show 128 + col.val % 128 = col.val
    omega
  · rw [if_neg (by omega : ¬col.val / 128 = 0), if_neg (by omega : ¬col.val / 128 = 1)]
    refine concatenate_apply_piece (t := S8192x384) (1 : Fin 2) [⟨S8192x128, x0⟩, ⟨S8192x128, x1⟩, ⟨S8192x128, x2⟩]
      concatenates_S8192x128_S8192x128_S8192x128_S8192x384_d1 (ix2 d col) 2 (by show (2 : Nat) < 3; omega)
      S8192x128 x2 rfl rfl 256 rfl _ hi ?_
    show 256 + col.val % 128 = col.val
    omega

/-- The three padded projection matrices side by side are the fused matrix: column `col` is lane `col % 128` of
    projection `col / 128`, zero on the 28 padding lanes. -/
theorem fused_apply (wq wk wv : S8192x100.Idx → EReal) (z : S_.Idx → EReal) (hz : ∀ i, z i = 0) (d : Fin 8192)
    (col : Fin 384) :
    concatenate S8192x384 1
        [⟨S8192x128, pad S8192x128 ![0, 0] ![0, 28] ![0, 0] wq z pads_S8192x100_S8192x128_000_0280 h_S_⟩,
         ⟨S8192x128, pad S8192x128 ![0, 0] ![0, 28] ![0, 0] wk z pads_S8192x100_S8192x128_000_0280 h_S_⟩,
         ⟨S8192x128, pad S8192x128 ![0, 0] ![0, 28] ![0, 0] wv z pads_S8192x100_S8192x128_000_0280 h_S_⟩]
        concatenates_S8192x128_S8192x128_S8192x128_S8192x384_d1 (ix2 d col)
      = WfusedAt wq wk wv d col := by
  rw [cat3_apply]
  unfold WfusedAt
  have hc : col.val < 384 := col.isLt
  rcases (by omega : col.val / 128 = 0 ∨ col.val / 128 = 1 ∨ col.val / 128 = 2) with h | h | h
  · rw [if_pos h, if_pos h]
    exact padw_apply wq z hz d _
  · rw [if_neg (by omega : ¬col.val / 128 = 0), if_pos h, if_neg (by omega : ¬col.val / 128 = 0), if_pos h]
    exact padw_apply wk z hz d _
  · rw [if_neg (by omega : ¬col.val / 128 = 0), if_neg (by omega : ¬col.val / 128 = 1),
      if_neg (by omega : ¬col.val / 128 = 0), if_neg (by omega : ¬col.val / 128 = 1)]
    exact padw_apply wv z hz d _

/-- The weight block at point `t`: column `col` is lane `col % 128` of projection `col / 128`, zero on the padding lanes. -/
theorem wblk_apply (c : Dev nD) (t : Fin cfg0.N) (d : Fin 8192) (col : Fin 384) :
    iblk (F := Ideal) m c 3 t (ix2 d col)
      = WfusedAt (m ((c.tc : Thread nD τ).loc main_arg1)) (m ((c.tc : Thread nD τ).loc main_arg2))
          (m ((c.tc : Thread nD τ).loc main_arg3)) d col := by
  rw [wblk_whole]
  show (V m c main_v3 : S8192x384.Idx → EReal) (ix2 d col) = _
  rw [v3_eq]
  exact fused_apply _ _ _ _ padval_zero d col

end Cert.KernelIdeal.Val

end
-- ==== Proof.KBlockQKV.lean ====
/-
  The projections inside the kernel body, read at an index. The body multiplies the 200-row sequence block by the fused
  weight matrix once and cuts the product into its query, key and value column groups (columns 0..127, 128..255,
  256..383); it stacks the two forward pad rows over the two backward pad rows, multiplies the four rows by the same
  matrix, and cuts out the key and value groups of each. Entry (row, lane) of each of the seven pieces is that row
  times one column of the fused matrix: a sum over the 8192 features.
-/
import proofs.«418362_j13082470384196_3_alg».proof.Proof.KIBody
import proofs.«418362_j13082470384196_3_alg».proof.Proof.AttnBlock
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.KernelIdeal.Frm
open Idealize.ShloMosaic Idealize.ShloMosaic.ValueIdx Cert.Attn

variable (x : Vec Ideal S200x8192 .f32) (w : Vec Ideal S8192x384 .f32) (f g : Vec Ideal S2x1x8192 .f32)

/-! ## The 200-row product

The operand indices of the product at output index `i` and contraction index `q`, axis by axis: the left operand is read
at (row of `i`, `q`), the right at (`q`, column of `i`). -/

theorem lhs200_0 (i : S200x384.Idx) (q : dot_S200x8192_S8192x384_S200x384_1_0_0_1_n_n.contr.Idx) :
    (dot_S200x8192_S8192x384_S200x384_1_0_0_1_n_n.lhsIdx i q 0).val = (i 0).val := by
  unfold DotDims.lhsIdx
  rw [dif_neg (show ¬(0 : Fin S200x8192.rank) ∈ dot_S200x8192_S8192x384_S200x384_1_0_0_1_n_n.lhsBatch by decide), dif_pos (show (0 : Fin S200x8192.rank) ∈ dot_S200x8192_S8192x384_S200x384_1_0_0_1_n_n.lhsNonContracting by decide)]
  rfl
theorem lhs200_1 (i : S200x384.Idx) (q : dot_S200x8192_S8192x384_S200x384_1_0_0_1_n_n.contr.Idx) :
    (dot_S200x8192_S8192x384_S200x384_1_0_0_1_n_n.lhsIdx i q 1).val = (q ⟨0, by decide⟩).val :=
  dot_S200x8192_S8192x384_S200x384_1_0_0_1_n_n.lhsIdx_val_of_single rfl i q
theorem rhs200_0 (i : S200x384.Idx) (q : dot_S200x8192_S8192x384_S200x384_1_0_0_1_n_n.contr.Idx) :
    (dot_S200x8192_S8192x384_S200x384_1_0_0_1_n_n.rhsIdx i q 0).val = (q ⟨0, by decide⟩).val :=
  dot_S200x8192_S8192x384_S200x384_1_0_0_1_n_n.rhsIdx_val_of_single rfl i q
theorem rhs200_1 (i : S200x384.Idx) (q : dot_S200x8192_S8192x384_S200x384_1_0_0_1_n_n.contr.Idx) :
    (dot_S200x8192_S8192x384_S200x384_1_0_0_1_n_n.rhsIdx i q 1).val = (i 1).val := by
  unfold DotDims.rhsIdx
  rw [dif_neg (show ¬(1 : Fin S8192x384.rank) ∈ dot_S200x8192_S8192x384_S200x384_1_0_0_1_n_n.rhsBatch by decide), dif_pos (show (1 : Fin S8192x384.rank) ∈ dot_S200x8192_S8192x384_S200x384_1_0_0_1_n_n.rhsNonContracting by decide)]
  rfl

/-- Entry (r, c) of the block times the fused matrix: row r against column c. -/
theorem pay3_apply (r : Fin 200) (c : Fin 384) :
    k0_pay3 (F := Ideal) x w (ix2 r c) = ∑ d : Fin 8192, x (ix2 r d) * w (ix2 d c) := by
  unfold k0_pay3 k0_pay2
  rw [shapeCast_self, shapeCast_self]
  refine (Ideal.matmul_constant_zero_apply dot_S200x8192_S8192x384_S200x384_1_0_0_1_n_n (some .fp32) x w (ix2 r c)).trans ?_
  rw [← Equiv.sum_comp (contrEquiv1 dot_S200x8192_S8192x384_S200x384_1_0_0_1_n_n 8192 rfl rfl).symm]
  refine Finset.sum_congr rfl fun k _ => ?_
  have hk := contrEquiv1_symm_val dot_S200x8192_S8192x384_S200x384_1_0_0_1_n_n 8192 rfl rfl k
  have el : dot_S200x8192_S8192x384_S200x384_1_0_0_1_n_n.lhsIdx (ix2 r c) ((contrEquiv1 dot_S200x8192_S8192x384_S200x384_1_0_0_1_n_n 8192 rfl rfl).symm k) = ix2 r k := funext fun a => Fin.ext (by
    match a with
    | ⟨0, _⟩ => exact lhs200_0 _ _
    | ⟨1, _⟩ => exact (lhs200_1 _ _).trans hk)
  have er : dot_S200x8192_S8192x384_S200x384_1_0_0_1_n_n.rhsIdx (ix2 r c) ((contrEquiv1 dot_S200x8192_S8192x384_S200x384_1_0_0_1_n_n 8192 rfl rfl).symm k) = ix2 k c := funext fun a => Fin.ext (by
    match a with
    | ⟨0, _⟩ => exact (rhs200_0 _ _).trans hk
    | ⟨1, _⟩ => exact rhs200_1 _ _)
  rw [el, er]

/-- The query group: row `r` of the block times column `l`. -/
theorem q_apply (r : Fin 200) (l : Fin 128) :
    k0_pay4 (F := Ideal) x w (ix2 r l) = bproj (fun d => x (ix2 r d)) w (⟨l.val, by omega⟩ : Fin 384) := by
  unfold k0_pay4
  have hk : ∀ a : Fin S200x384.rank, ((ix2 r (⟨l.val, by omega⟩ : Fin 384) : S200x384.Idx) a).val
      = (![0, 0] : Fin S200x384.rank → Nat) a + ((ix2 r l : S200x128.Idx) (a.cast slices_S200x384_o0_0_S200x128.1.symm)).val := fun a => by
    match a with
    | ⟨0, _⟩ => exact (Nat.zero_add _).symm
    | ⟨1, _⟩ => exact (Nat.zero_add _).symm
  exact (extractStridedSlice_apply (s := S200x384) (t := S200x128) ![0, 0] (k0_pay3 (F := Ideal) x w)
    slices_S200x384_o0_0_S200x128 (ix2 r l) (ix2 r (⟨l.val, by omega⟩ : Fin 384)) hk).trans (pay3_apply x w r _)

/-- The key group: row `r` times column `128 + l`. -/
theorem k_apply (r : Fin 200) (l : Fin 128) :
    k0_pay5 (F := Ideal) x w (ix2 r l) = bproj (fun d => x (ix2 r d)) w (⟨128 + l.val, by omega⟩ : Fin 384) := by
  unfold k0_pay5
  refine (extractStridedSlice_apply ![0, 128] (k0_pay3 (F := Ideal) x w) slices_S200x384_o0_128_S200x128 (ix2 r l)
    (ix2 r (⟨128 + l.val, by omega⟩ : Fin 384)) (fun a => ?_)).trans (pay3_apply x w r _)
  match a with
  | ⟨0, _⟩ => show r.val = 0 + r.val; omega
  | ⟨1, _⟩ => rfl

/-- The value group: row `r` times column `256 + l`. -/
theorem v_apply (r : Fin 200) (l : Fin 128) :
    k0_pay6 (F := Ideal) x w (ix2 r l) = bproj (fun d => x (ix2 r d)) w (⟨256 + l.val, by omega⟩ : Fin 384) := by
  unfold k0_pay6
  refine (extractStridedSlice_apply ![0, 256] (k0_pay3 (F := Ideal) x w) slices_S200x384_o0_256_S200x128 (ix2 r l)
    (ix2 r (⟨256 + l.val, by omega⟩ : Fin 384)) (fun a => ?_)).trans (pay3_apply x w r _)
  match a with
  | ⟨0, _⟩ => show r.val = 0 + r.val; omega
  | ⟨1, _⟩ => rfl

/-! ## The four pad rows -/

/-- Dropping the unit axis of a pad block: entry (a, d) is the block's entry (a, 0, d). -/
theorem padCast_apply (p : Vec Ideal S2x1x8192 .f32) (a : Fin 2) (d : Fin 8192) :
    shapeCast S2x8192 p shapeCasts_S2x1x8192_S2x8192 (ix2 a d) = p (ix3 a (0 : Fin 1) d) := by
  refine shapeCast_apply p shapeCasts_S2x1x8192_S2x8192 (ix2 a d) (ix3 a (0 : Fin 1) d) ?_
  rw [Shape.rowMajor_val_three, Shape.rowMajor_val_two]
  show (a.val * 1 + 0) * 8192 + d.val = a.val * 8192 + d.val
  omega

/-- Rows 0, 1 of the stack are the first piece's rows. -/
theorem stack_fwd_apply (p q : FVec Ideal S2x8192 .f32) (a : Fin 2) (d : Fin 8192) :
    concatenate S4x8192 0 [⟨S2x8192, p⟩, ⟨S2x8192, q⟩] concatenates_S2x8192_S2x8192_S4x8192_d0 (ix2 (⟨a.val, by omega⟩ : Fin 4) d)
      = p (ix2 a d) := by
  refine concatenate_pair_apply_left (0 : Fin S4x8192.rank) p q concatenates_S2x8192_S2x8192_S4x8192_d0 _ rfl (ix2 a d) (fun b => ?_)
  match b with
  | ⟨0, _⟩ => rfl
  | ⟨1, _⟩ => rfl

/-- Rows 2, 3 of the stack are the second piece's rows. -/
theorem stack_bwd_apply (p q : FVec Ideal S2x8192 .f32) (a : Fin 2) (d : Fin 8192) :
    concatenate S4x8192 0 [⟨S2x8192, p⟩, ⟨S2x8192, q⟩] concatenates_S2x8192_S2x8192_S4x8192_d0 (ix2 (⟨2 + a.val, by omega⟩ : Fin 4) d)
      = q (ix2 a d) := by
  refine concatenate_pair_apply_right (0 : Fin S4x8192.rank) p q concatenates_S2x8192_S2x8192_S4x8192_d0 _ rfl rfl (ix2 a d) (fun b hb => ?_) ?_
  · match b with
    | ⟨0, _⟩ => exact absurd rfl hb
    | ⟨1, _⟩ => rfl
  · show a.val + 2 = 2 + a.val
    omega

/-- The same four coordinates for the four-row product. -/
theorem lhs4_0 (i : S4x384.Idx) (q : dot_S4x8192_S8192x384_S4x384_1_0_0_1_n_n.contr.Idx) :
    (dot_S4x8192_S8192x384_S4x384_1_0_0_1_n_n.lhsIdx i q 0).val = (i 0).val := by
  unfold DotDims.lhsIdx
  rw [dif_neg (show ¬(0 : Fin S4x8192.rank) ∈ dot_S4x8192_S8192x384_S4x384_1_0_0_1_n_n.lhsBatch by decide), dif_pos (show (0 : Fin S4x8192.rank) ∈ dot_S4x8192_S8192x384_S4x384_1_0_0_1_n_n.lhsNonContracting by decide)]
  rfl
theorem lhs4_1 (i : S4x384.Idx) (q : dot_S4x8192_S8192x384_S4x384_1_0_0_1_n_n.contr.Idx) :
    (dot_S4x8192_S8192x384_S4x384_1_0_0_1_n_n.lhsIdx i q 1).val = (q ⟨0, by decide⟩).val :=
  dot_S4x8192_S8192x384_S4x384_1_0_0_1_n_n.lhsIdx_val_of_single rfl i q
theorem rhs4_0 (i : S4x384.Idx) (q : dot_S4x8192_S8192x384_S4x384_1_0_0_1_n_n.contr.Idx) :
    (dot_S4x8192_S8192x384_S4x384_1_0_0_1_n_n.rhsIdx i q 0).val = (q ⟨0, by decide⟩).val :=
  dot_S4x8192_S8192x384_S4x384_1_0_0_1_n_n.rhsIdx_val_of_single rfl i q
theorem rhs4_1 (i : S4x384.Idx) (q : dot_S4x8192_S8192x384_S4x384_1_0_0_1_n_n.contr.Idx) :
    (dot_S4x8192_S8192x384_S4x384_1_0_0_1_n_n.rhsIdx i q 1).val = (i 1).val := by
  unfold DotDims.rhsIdx
  rw [dif_neg (show ¬(1 : Fin S8192x384.rank) ∈ dot_S4x8192_S8192x384_S4x384_1_0_0_1_n_n.rhsBatch by decide), dif_pos (show (1 : Fin S8192x384.rank) ∈ dot_S4x8192_S8192x384_S4x384_1_0_0_1_n_n.rhsNonContracting by decide)]
  rfl

/-- Entry (a, c) of four stacked rows times the fused matrix: row a against column c. -/
theorem mm4_apply (y : FVec Ideal S4x8192 .f32) (m : FVec Ideal S8192x384 .f32) (a : Fin 4) (c : Fin 384) :
    FloatOps.matmul dot_S4x8192_S8192x384_S4x384_1_0_0_1_n_n (some .fp32) y m (constant S4x384 .f32 0x00000000#32) (ix2 a c)
      = ∑ d : Fin 8192, y (ix2 a d) * m (ix2 d c) := by
  refine (Ideal.matmul_constant_zero_apply dot_S4x8192_S8192x384_S4x384_1_0_0_1_n_n (some .fp32) y m (ix2 a c)).trans ?_
  rw [← Equiv.sum_comp (contrEquiv1 dot_S4x8192_S8192x384_S4x384_1_0_0_1_n_n 8192 rfl rfl).symm]
  refine Finset.sum_congr rfl fun k _ => ?_
  have hk := contrEquiv1_symm_val dot_S4x8192_S8192x384_S4x384_1_0_0_1_n_n 8192 rfl rfl k
  have el : dot_S4x8192_S8192x384_S4x384_1_0_0_1_n_n.lhsIdx (ix2 a c) ((contrEquiv1 dot_S4x8192_S8192x384_S4x384_1_0_0_1_n_n 8192 rfl rfl).symm k) = ix2 a k := funext fun b => Fin.ext (by
    match b with
    | ⟨0, _⟩ => exact lhs4_0 _ _
    | ⟨1, _⟩ => exact (lhs4_1 _ _).trans hk)
  have er : dot_S4x8192_S8192x384_S4x384_1_0_0_1_n_n.rhsIdx (ix2 a c) ((contrEquiv1 dot_S4x8192_S8192x384_S4x384_1_0_0_1_n_n 8192 rfl rfl).symm k) = ix2 k c := funext fun b => Fin.ext (by
    match b with
    | ⟨0, _⟩ => exact (rhs4_0 _ _).trans hk
    | ⟨1, _⟩ => exact rhs4_1 _ _)
  rw [el, er]

/-- Rows 0, 1 of the four-row product: the forward pad row of batch a against column c. -/
theorem pay7_fwd_apply (a : Fin 2) (c : Fin 384) :
    k0_pay7 (F := Ideal) w f g (ix2 (⟨a.val, by omega⟩ : Fin 4) c) = ∑ d : Fin 8192, f (ix3 a (0 : Fin 1) d) * w (ix2 d c) := by
  unfold k0_pay7 k0_pay2
  rw [shapeCast_self]
  refine (mm4_apply _ w _ c).trans (Finset.sum_congr rfl fun d _ => ?_)
  rw [stack_fwd_apply, padCast_apply]

/-- Rows 2, 3 of the four-row product: the backward pad row of batch a against column c. -/
theorem pay7_bwd_apply (a : Fin 2) (c : Fin 384) :
    k0_pay7 (F := Ideal) w f g (ix2 (⟨2 + a.val, by omega⟩ : Fin 4) c) = ∑ d : Fin 8192, g (ix3 a (0 : Fin 1) d) * w (ix2 d c) := by
  unfold k0_pay7 k0_pay2
  rw [shapeCast_self]
  refine (mm4_apply _ w _ c).trans (Finset.sum_congr rfl fun d _ => ?_)
  rw [stack_bwd_apply, padCast_apply]

/-- The forward half of the four-row product. -/
theorem pay8_apply (a : Fin 2) (c : Fin 384) :
    k0_pay8 (F := Ideal) w f g (ix2 a c) = bproj (fun d => f (ix3 a (0 : Fin 1) d)) w c := by
  unfold k0_pay8
  have hk : ∀ b : Fin S4x384.rank, ((ix2 (⟨a.val, by omega⟩ : Fin 4) c : S4x384.Idx) b).val
      = (![0, 0] : Fin S4x384.rank → Nat) b + ((ix2 a c : S2x384.Idx) (b.cast slices_S4x384_o0_0_S2x384.1.symm)).val := fun b => by
    match b with
    | ⟨0, _⟩ => exact (Nat.zero_add _).symm
    | ⟨1, _⟩ => exact (Nat.zero_add _).symm
  exact (extractStridedSlice_apply (s := S4x384) (t := S2x384) ![0, 0] (k0_pay7 (F := Ideal) w f g)
    slices_S4x384_o0_0_S2x384 (ix2 a c) (ix2 (⟨a.val, by omega⟩ : Fin 4) c) hk).trans (pay7_fwd_apply w f g a c)

/-- The backward half of the four-row product. -/
theorem pay9_apply (a : Fin 2) (c : Fin 384) :
    k0_pay9 (F := Ideal) w f g (ix2 a c) = bproj (fun d => g (ix3 a (0 : Fin 1) d)) w c := by
  unfold k0_pay9
  refine (extractStridedSlice_apply ![2, 0] (k0_pay7 (F := Ideal) w f g) slices_S4x384_o2_0_S2x384 (ix2 a c)
    (ix2 (⟨2 + a.val, by omega⟩ : Fin 4) c) (fun b => ?_)).trans (pay7_bwd_apply w f g a c)
  match b with
  | ⟨0, _⟩ => rfl
  | ⟨1, _⟩ => show c.val = 0 + c.val; omega

/-- The forward pad row of batch `a`, key group. -/
theorem kf_apply (a : Fin 2) (l : Fin 128) :
    k0_pay10 (F := Ideal) w f g (ix2 a l) = bproj (fun d => f (ix3 a (0 : Fin 1) d)) w (⟨128 + l.val, by omega⟩ : Fin 384) := by
  unfold k0_pay10
  refine (extractStridedSlice_apply ![0, 128] (k0_pay8 (F := Ideal) w f g) slices_S2x384_o0_128_S2x128 (ix2 a l)
    (ix2 a (⟨128 + l.val, by omega⟩ : Fin 384)) (fun b => ?_)).trans (pay8_apply w f g a _)
  match b with
  | ⟨0, _⟩ => show a.val = 0 + a.val; omega
  | ⟨1, _⟩ => rfl

/-- The forward pad row of batch `a`, value group. -/
theorem vf_apply (a : Fin 2) (l : Fin 128) :
    k0_pay11 (F := Ideal) w f g (ix2 a l) = bproj (fun d => f (ix3 a (0 : Fin 1) d)) w (⟨256 + l.val, by omega⟩ : Fin 384) := by
  unfold k0_pay11
  refine (extractStridedSlice_apply ![0, 256] (k0_pay8 (F := Ideal) w f g) slices_S2x384_o0_256_S2x128 (ix2 a l)
    (ix2 a (⟨256 + l.val, by omega⟩ : Fin 384)) (fun b => ?_)).trans (pay8_apply w f g a _)
  match b with
  | ⟨0, _⟩ => show a.val = 0 + a.val; omega
  | ⟨1, _⟩ => rfl

/-- The backward pad row of batch `a`, key group. -/
theorem kb_apply (a : Fin 2) (l : Fin 128) :
    k0_pay12 (F := Ideal) w f g (ix2 a l) = bproj (fun d => g (ix3 a (0 : Fin 1) d)) w (⟨128 + l.val, by omega⟩ : Fin 384) := by
  unfold k0_pay12
  refine (extractStridedSlice_apply ![0, 128] (k0_pay9 (F := Ideal) w f g) slices_S2x384_o0_128_S2x128 (ix2 a l)
    (ix2 a (⟨128 + l.val, by omega⟩ : Fin 384)) (fun b => ?_)).trans (pay9_apply w f g a _)
  match b with
  | ⟨0, _⟩ => show a.val = 0 + a.val; omega
  | ⟨1, _⟩ => rfl

/-- The backward pad row of batch `a`, value group. -/
theorem vb_apply (a : Fin 2) (l : Fin 128) :
    k0_pay13 (F := Ideal) w f g (ix2 a l) = bproj (fun d => g (ix3 a (0 : Fin 1) d)) w (⟨256 + l.val, by omega⟩ : Fin 384) := by
  unfold k0_pay13
  refine (extractStridedSlice_apply ![0, 256] (k0_pay9 (F := Ideal) w f g) slices_S2x384_o0_256_S2x128 (ix2 a l)
    (ix2 a (⟨256 + l.val, by omega⟩ : Fin 384)) (fun b => ?_)).trans (pay9_apply w f g a _)
  match b with
  | ⟨0, _⟩ => show a.val = 0 + a.val; omega
  | ⟨1, _⟩ => rfl

end Cert.KernelIdeal.BlockValue

end
-- ==== Proof.KBlockLo.lean ====
/-
  Rows 0..99 of the output block (the first batch of the pair): what the body stores there is the block function
  `Cert.Attn.blkAttnAt` at row `s`.
-/
import proofs.«418362_j13082470384196_3_alg».proof.Proof.KBlockQKV
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.KernelIdeal.Frm
open Idealize.ShloMosaic Idealize.ShloMosaic.ValueIdx Cert.Attn

namespace Lo

/-! ## The layout steps of the body, read at an index -/

section Layout
variable {α : Type}

/-- One row laid over the first 99 rows of a block: row 0 of the result is row 0 of the two-row piece, row `s ≥ 1` is
    the block's row `s - 1`. -/
theorem catAbove_apply (top : S2x128.Idx → α) (body : S100x128.Idx → α) (h1 : S2x128.Slices ![0, 0] S1x128)
    (h2 : S100x128.Slices ![0, 0] S99x128) (hc : Shape.Concatenates [S1x128, S99x128] S100x128 0) (s : Fin 100) (l : Fin 128) :
    concatenate S100x128 0 [⟨S1x128, extractStridedSlice S1x128 ![0, 0] top h1⟩,
        ⟨S99x128, extractStridedSlice S99x128 ![0, 0] body h2⟩] hc (ix2 s l)
      = if h : s.val = 0 then top (ix2 (0 : Fin 2) l) else body (ix2 (⟨s.val - 1, by omega⟩ : Fin 100) l) := by
  by_cases h : s.val = 0
  · rw [dif_pos h]
    refine (concatenate_pair_apply_left (t := S100x128) (s₁ := S1x128) (s₂ := S99x128) (0 : Fin 2) _ _ hc (ix2 s l) rfl
      (ix2 (0 : Fin 1) l) (fun b => ?_)).trans ?_
    · match b with
      | ⟨0, _⟩ => exact h.symm
      | ⟨1, _⟩ => rfl
    · exact slice2_axis0_apply 0 top h1 (0 : Fin 1) l (0 : Fin 2) rfl
  · rw [dif_neg h]
    refine (concatenate_pair_apply_right (t := S100x128) (s₁ := S1x128) (s₂ := S99x128) (0 : Fin 2) _ _ hc (ix2 s l) rfl rfl
      (ix2 (⟨s.val - 1, by omega⟩ : Fin 99) l) (fun b hb => ?_) ?_).trans ?_
    · match b with
      | ⟨0, _⟩ => exact absurd rfl hb
      | ⟨1, _⟩ => rfl
    · show s.val - 1 + 1 = s.val
      omega
    · exact slice2_axis0_apply 0 body h2 (⟨s.val - 1, by omega⟩ : Fin 99) l (⟨s.val - 1, by omega⟩ : Fin 100) (Nat.zero_add _).symm

/-- The last 99 rows of a block laid over one row: row `s ≤ 98` of the result is the block's row `s + 1`, row 99 is
    row 0 of the two-row piece. -/
theorem catBelow_apply (body : S100x128.Idx → α) (bot : S2x128.Idx → α) (h1 : S100x128.Slices ![1, 0] S99x128)
    (h2 : S2x128.Slices ![0, 0] S1x128) (hc : Shape.Concatenates [S99x128, S1x128] S100x128 0) (s : Fin 100) (l : Fin 128) :
    concatenate S100x128 0 [⟨S99x128, extractStridedSlice S99x128 ![1, 0] body h1⟩,
        ⟨S1x128, extractStridedSlice S1x128 ![0, 0] bot h2⟩] hc (ix2 s l)
      = if h : s.val < 99 then body (ix2 (⟨s.val + 1, by omega⟩ : Fin 100) l) else bot (ix2 (0 : Fin 2) l) := by
  by_cases h : s.val < 99
  · rw [dif_pos h]
    refine (concatenate_pair_apply_left (t := S100x128) (s₁ := S99x128) (s₂ := S1x128) (0 : Fin 2) _ _ hc (ix2 s l) rfl
      (ix2 (⟨s.val, h⟩ : Fin 99) l) (fun b => ?_)).trans ?_
    · match b with
      | ⟨0, _⟩ => rfl
      | ⟨1, _⟩ => rfl
    · exact slice2_axis0_apply 1 body h1 (⟨s.val, h⟩ : Fin 99) l (⟨s.val + 1, by omega⟩ : Fin 100) (Nat.add_comm _ _)
  · rw [dif_neg h]
    refine (concatenate_pair_apply_right (t := S100x128) (s₁ := S99x128) (s₂ := S1x128) (0 : Fin 2) _ _ hc (ix2 s l) rfl rfl
      (ix2 (0 : Fin 1) l) (fun b hb => ?_) ?_).trans ?_
    · match b with
      | ⟨0, _⟩ => exact absurd rfl hb
      | ⟨1, _⟩ => rfl
    · show 0 + 99 = s.val
      have := s.isLt
      omega
    · exact slice2_axis0_apply 0 bot h2 (0 : Fin 1) l (0 : Fin 2) rfl

/-- A column of 100 entries spread over the 128 lanes reads its row's entry at every lane. -/
theorem bcast_apply (v : S100x1.Idx → α) (h : S100x1.Broadcasts S100x128) (s : Fin 100) (l : Fin 128) :
    broadcastTo S100x128 v h (ix2 s l) = v (ix2 s (0 : Fin 1)) :=
  broadcastTo_apply v h (ix2 s l) (ix2 s (0 : Fin 1)) fun a =>
    match a with
    | ⟨0, _⟩ => by show s.val = if (100 : Nat) = 1 then 0 else s.val; rfl
    | ⟨1, _⟩ => by show (0 : Nat) = if (1 : Nat) = 1 then 0 else l.val; rfl

end Layout

/-- The lane sums of a block, kept as a column: entry `s` is the sum over the 128 lanes of row `s`. -/
theorem rowSum_apply (A : FVec Ideal S100x128 .f32) (hr : S100x128.Reduces [1] S100) (hφ : FKind.Formats .f32)
    (hacc : (0x00000000#32 : BitVec 32) = FKind.add.neutral .f32 hφ) (hs : S100.ShapeCasts S100x1) (s : Fin 100) (c : Fin 1) :
    shapeCast S100x1 (multiReduction .add [1] S100 A 0x00000000#32 hr hφ hacc) hs (ix2 s c) = ∑ l : Fin 128, A (ix2 s l) := by
  refine (shapeCast_apply _ hs (ix2 s c) (ix1 s) ?_).trans ?_
  · rw [Shape.rowMajor_val_one, Shape.rowMajor_val_two]
    show s.val = s.val * 1 + c.val
    have := c.isLt
    omega
  · refine (Ideal.multiReduction_add_single (φ := .f32) A 0x00000000#32 hr hφ hacc (ix1 s)).trans ?_
    show ∑ k : Fin 128, A (hr.lift (ix1 s) k) = _
    refine Finset.sum_congr rfl fun k _ => congrArg A ?_
    funext a
    match a with
    | ⟨0, _⟩ => rfl
    | ⟨1, _⟩ => rfl

/-! ## The padded sequence of batch 0, row by row -/

section Rows
variable (x : Vec Ideal S200x8192 .f32) (w : Vec Ideal S8192x384 .f32) (f g : Vec Ideal S2x1x8192 .f32)

/-- Padded row 0 of batch 0 is the forward pad row. -/
theorem brow_first (j : Fin 102) (h : j.val = 0) :
    brow x f g 0 j = fun d => f (ix3 (0 : Fin 2) (0 : Fin 1) d) := by
  funext d
  unfold brow
  rw [dif_pos h]

/-- Padded row `j`, `1 ≤ j ≤ 100`, of batch 0 is the block's row `j - 1`. -/
theorem brow_mid (j : Fin 102) (r : Fin 200) (h0 : ¬ j.val = 0) (h1 : j.val < 101) (hr : r.val = j.val - 1) :
    brow x f g 0 j = fun d => x (ix2 r d) := by
  funext d
  unfold brow
  rw [dif_neg h0, dif_pos h1]
  exact congrArg (fun r => x (ix2 r d)) (Fin.ext (by show 100 * 0 + (j.val - 1) = r.val; omega))

/-- Padded row 101 of batch 0 is the backward pad row. -/
theorem brow_last (j : Fin 102) (h : ¬ j.val < 101) :
    brow x f g 0 j = fun d => g (ix3 (0 : Fin 2) (0 : Fin 1) d) := by
  funext d
  unfold brow
  rw [dif_neg (by omega), dif_neg h]

/-- A block laid under the forward pad's row, both read as a row times column `col`: entry `(s, l)` is padded row
    `s` (tap 0 of window `s`) times that column. -/
theorem left_apply (top : S2x128.Idx → EReal) (body : S100x128.Idx → EReal) (col : Fin 384) (l : Fin 128)
    (htop : top (ix2 (0 : Fin 2) l) = bproj (fun d => f (ix3 (0 : Fin 2) (0 : Fin 1) d)) w col)
    (hbody : ∀ r : Fin 100, body (ix2 r l) = bproj (fun d => x (ix2 (⟨r.val, by omega⟩ : Fin 200) d)) w col)
    (h1 : S2x128.Slices ![0, 0] S1x128) (h2 : S100x128.Slices ![0, 0] S99x128)
    (hc : Shape.Concatenates [S1x128, S99x128] S100x128 0) (s : Fin 100) :
    concatenate S100x128 0 [⟨S1x128, extractStridedSlice S1x128 ![0, 0] top h1⟩,
        ⟨S99x128, extractStridedSlice S99x128 ![0, 0] body h2⟩] hc (ix2 s l)
      = bproj (brow x f g 0 (tap s 0)) w col := by
  refine (catAbove_apply top body h1 h2 hc s l).trans ?_
  by_cases h : s.val = 0
  · rw [dif_pos h, htop, brow_first x f g (tap s 0) (by show s.val + 0 = 0; omega)]
  · rw [dif_neg h, hbody,
      brow_mid x f g (tap s 0) (⟨s.val - 1, by omega⟩ : Fin 200) (by show ¬ s.val + 0 = 0; omega)
        (by show s.val + 0 < 101; omega) (by show s.val - 1 = s.val + 0 - 1; omega)]

/-- A block laid over the backward pad's row: entry `(s, l)` is padded row `s + 2` (tap 2 of window `s`) times
    column `col`. -/
theorem right_apply (body : S100x128.Idx → EReal) (bot : S2x128.Idx → EReal) (col : Fin 384) (l : Fin 128)
    (hbody : ∀ r : Fin 100, body (ix2 r l) = bproj (fun d => x (ix2 (⟨r.val, by omega⟩ : Fin 200) d)) w col)
    (hbot : bot (ix2 (0 : Fin 2) l) = bproj (fun d => g (ix3 (0 : Fin 2) (0 : Fin 1) d)) w col)
    (h1 : S100x128.Slices ![1, 0] S99x128) (h2 : S2x128.Slices ![0, 0] S1x128)
    (hc : Shape.Concatenates [S99x128, S1x128] S100x128 0) (s : Fin 100) :
    concatenate S100x128 0 [⟨S99x128, extractStridedSlice S99x128 ![1, 0] body h1⟩,
        ⟨S1x128, extractStridedSlice S1x128 ![0, 0] bot h2⟩] hc (ix2 s l)
      = bproj (brow x f g 0 (tap s 2)) w col := by
  refine (catBelow_apply body bot h1 h2 hc s l).trans ?_
  by_cases h : s.val < 99
  · rw [dif_pos h, hbody,
      brow_mid x f g (tap s 2) (⟨s.val + 1, by omega⟩ : Fin 200) (by show ¬ s.val + 2 = 0; omega)
        (by show s.val + 2 < 101; omega) (by show s.val + 1 = s.val + 2 - 1; omega)]
  · rw [dif_neg h, hbot, brow_last x f g (tap s 2) (by show ¬ s.val + 2 < 101; omega)]

/-- The centre row of window `s` (tap 1) is the block's row `s`. -/
theorem brow_centre (s : Fin 100) :
    brow x f g 0 (tap s 1) = fun d => x (ix2 (⟨s.val, by omega⟩ : Fin 200) d) :=
  brow_mid x f g (tap s 1) (⟨s.val, by omega⟩ : Fin 200) (by show ¬ s.val + 1 = 0; omega)
    (by show s.val + 1 < 101; omega) (by show s.val = s.val + 1 - 1; omega)

end Rows

/-! ## The body's values for rows 0..99, read at an index -/

section Pays
variable (x : Vec Ideal S200x8192 .f32) (w : Vec Ideal S8192x384 .f32) (f g : Vec Ideal S2x1x8192 .f32)

/-- Rows 0..99 of the query group. -/
theorem qRow_apply (r : Fin 100) (l : Fin 128) :
    k0_pay14 (F := Ideal) x w (ix2 r l)
      = bproj (fun d => x (ix2 (⟨r.val, by omega⟩ : Fin 200) d)) w (⟨l.val, by omega⟩ : Fin 384) := by
  unfold k0_pay14
  exact (slice2_axis0_apply 0 (k0_pay4 (F := Ideal) x w) _ r l (⟨r.val, by omega⟩ : Fin 200) (Nat.zero_add _).symm).trans
    (q_apply x w _ l)

/-- Rows 0..99 of the key group. -/
theorem kRow_apply (r : Fin 100) (l : Fin 128) :
    k0_pay15 (F := Ideal) x w (ix2 r l)
      = bproj (fun d => x (ix2 (⟨r.val, by omega⟩ : Fin 200) d)) w (⟨128 + l.val, by omega⟩ : Fin 384) := by
  unfold k0_pay15
  exact (slice2_axis0_apply 0 (k0_pay5 (F := Ideal) x w) _ r l (⟨r.val, by omega⟩ : Fin 200) (Nat.zero_add _).symm).trans
    (k_apply x w _ l)

/-- Rows 0..99 of the value group. -/
theorem vRow_apply (r : Fin 100) (l : Fin 128) :
    k0_pay16 (F := Ideal) x w (ix2 r l)
      = bproj (fun d => x (ix2 (⟨r.val, by omega⟩ : Fin 200) d)) w (⟨256 + l.val, by omega⟩ : Fin 384) := by
  unfold k0_pay16
  exact (slice2_axis0_apply 0 (k0_pay6 (F := Ideal) x w) _ r l (⟨r.val, by omega⟩ : Fin 200) (Nat.zero_add _).symm).trans
    (v_apply x w _ l)

/-- The score of tap 0: the centre row's query against the left neighbour's key, summed over the lanes. -/
theorem s0_apply (s : Fin 100) (c : Fin 1) : k0_pay19 (F := Ideal) x w f g (ix2 s c) = bscore x w f g 0 s 0 := by
  unfold k0_pay19
  refine (rowSum_apply _ _ _ _ _ s c).trans ?_
  unfold bscore
  refine Finset.sum_congr rfl fun l _ => ?_
  rw [mulf_apply, brow_centre x f g s]
  exact congrArg₂ (· * ·) (qRow_apply x w s l)
    (left_apply x w f g _ _ _ l (kf_apply w f g 0 l) (fun r => kRow_apply x w r l) _ _ _ s)

/-- The score of tap 1: the centre row's query against its own key. -/
theorem s1_apply (s : Fin 100) (c : Fin 1) : k0_pay20 (F := Ideal) x w (ix2 s c) = bscore x w f g 0 s 1 := by
  unfold k0_pay20
  refine (rowSum_apply _ _ _ _ _ s c).trans ?_
  unfold bscore
  refine Finset.sum_congr rfl fun l _ => ?_
  rw [mulf_apply, brow_centre x f g s]
  exact congrArg₂ (· * ·) (qRow_apply x w s l) (kRow_apply x w s l)

/-- The score of tap 2: the centre row's query against the right neighbour's key. -/
theorem s2_apply (s : Fin 100) (c : Fin 1) : k0_pay21 (F := Ideal) x w f g (ix2 s c) = bscore x w f g 0 s 2 := by
  unfold k0_pay21
  refine (rowSum_apply _ _ _ _ _ s c).trans ?_
  unfold bscore
  refine Finset.sum_congr rfl fun l _ => ?_
  rw [mulf_apply, brow_centre x f g s]
  exact congrArg₂ (· * ·) (qRow_apply x w s l)
    (right_apply x w f g _ _ _ l (fun r => kRow_apply x w r l) (kb_apply w f g 0 l) _ _ _ s)

/-- The left neighbour's value row. -/
theorem vL_apply (s : Fin 100) (l : Fin 128) : k0_pay17 (F := Ideal) x w f g (ix2 s l) = bval x w f g 0 s 0 l := by
  unfold k0_pay17 bval
  exact left_apply x w f g _ _ _ l (vf_apply w f g 0 l) (fun r => vRow_apply x w r l) _ _ _ s

/-- The centre row's value row. -/
theorem vC_apply (s : Fin 100) (l : Fin 128) : k0_pay16 (F := Ideal) x w (ix2 s l) = bval x w f g 0 s 1 l := by
  unfold bval
  rw [brow_centre x f g s]
  exact vRow_apply x w s l

/-- The right neighbour's value row. -/
theorem vR_apply (s : Fin 100) (l : Fin 128) : k0_pay18 (F := Ideal) x w f g (ix2 s l) = bval x w f g 0 s 2 l := by
  unfold k0_pay18 bval
  exact right_apply x w f g _ _ _ l (fun r => vRow_apply x w r l) (vb_apply w f g 0 l) _ _ _ s

/-- The soft-max combination of the three value rows, at an index. -/
theorem combine_apply (v22 v32 v34 : FVec Ideal S100x128 .f32) (v37 v40 v43 : FVec Ideal S100x1 .f32) (s : Fin 100) (l : Fin 128) :
    k0_pay22 (F := Ideal) v22 v32 v34 v37 v40 v43 (ix2 s l)
      = Ideal.div
          (Ideal.exp (v37 (ix2 s (0 : Fin 1)) - max (max (v37 (ix2 s (0 : Fin 1))) (v40 (ix2 s (0 : Fin 1)))) (v43 (ix2 s (0 : Fin 1))))
              * v32 (ix2 s l)
            + Ideal.exp (v40 (ix2 s (0 : Fin 1)) - max (max (v37 (ix2 s (0 : Fin 1))) (v40 (ix2 s (0 : Fin 1)))) (v43 (ix2 s (0 : Fin 1))))
              * v22 (ix2 s l)
            + Ideal.exp (v43 (ix2 s (0 : Fin 1)) - max (max (v37 (ix2 s (0 : Fin 1))) (v40 (ix2 s (0 : Fin 1)))) (v43 (ix2 s (0 : Fin 1))))
              * v34 (ix2 s l))
          (Ideal.exp (v37 (ix2 s (0 : Fin 1)) - max (max (v37 (ix2 s (0 : Fin 1))) (v40 (ix2 s (0 : Fin 1)))) (v43 (ix2 s (0 : Fin 1))))
            + Ideal.exp (v40 (ix2 s (0 : Fin 1)) - max (max (v37 (ix2 s (0 : Fin 1))) (v40 (ix2 s (0 : Fin 1)))) (v43 (ix2 s (0 : Fin 1))))
            + Ideal.exp (v43 (ix2 s (0 : Fin 1)) - max (max (v37 (ix2 s (0 : Fin 1))) (v40 (ix2 s (0 : Fin 1)))) (v43 (ix2 s (0 : Fin 1))))) := by
  unfold k0_pay22
  simp only [divf_apply, addf_apply, mulf_apply, bcast_apply]
  rfl

end Pays

end Lo

open Lo in
theorem loPay_apply (x : Vec Ideal S200x8192 .f32) (w : Vec Ideal S8192x384 .f32) (f g : Vec Ideal S2x1x8192 .f32)
    (s : Fin 100) (l : Fin 128) :
    loPay (F := Ideal) x w f g (ix2 s l) = blkAttnAt x w f g (⟨s.val, by omega⟩ : Fin 200) l := by
  have hB : pairB (⟨s.val, by omega⟩ : Fin 200) = 0 := Fin.ext (Nat.div_eq_of_lt s.isLt)
  have hS : pairS (⟨s.val, by omega⟩ : Fin 200) = s := Fin.ext (Nat.mod_eq_of_lt s.isLt)
  unfold blkAttnAt
  rw [hB, hS]
  unfold loPay bden bew bmax
  rw [combine_apply, s0_apply x w f g s 0, s1_apply x w f g s 0, s2_apply x w f g s 0, vL_apply x w f g s l,
    vC_apply x w f g s l, vR_apply x w f g s l]

end Cert.KernelIdeal.BlockValue

end
-- ==== Proof.KBlockHi.lean ====
/-
  Rows 100..199 of the output block (the second batch of the pair): what the body stores there is the block function
  `Cert.Attn.blkAttnAt` at row `100 + s`.
-/
import proofs.«418362_j13082470384196_3_alg».proof.Proof.KBlockQKV
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.KernelIdeal.Frm
open Idealize.ShloMosaic Idealize.ShloMosaic.ValueIdx Cert.Attn

/-! ## The layout operations of the second half, read at an index -/

/-- Rows 100..199 of a 200-row value: row `s` of the cut is row `100 + s`. -/
theorem hiSlice_apply (v : FVec Ideal S200x128 .f32) (s : Fin 100) (l : Fin 128) :
    extractStridedSlice S100x128 ![100, 0] v slices_S200x128_o100_0_S100x128 (ix2 s l)
      = v (ix2 (⟨100 + s.val, by omega⟩ : Fin 200) l) :=
  slice2_axis0_apply 100 v slices_S200x128_o100_0_S100x128 s l _ rfl

/-- The "left neighbour" rows: row 0 is the pad piece's row 1, row `s ≥ 1` is row `100 + s - 1` of the 200-row value. -/
theorem left_apply (v : FVec Ideal S200x128 .f32) (p : FVec Ideal S2x128 .f32) (s : Fin 100) (l : Fin 128) :
    k0_pay26 v p (ix2 s l)
      = if s.val = 0 then p (ix2 (1 : Fin 2) l) else v (ix2 (⟨99 + s.val, by omega⟩ : Fin 200) l) := by
  unfold k0_pay26 k0_pay25
  by_cases h : s.val = 0
  · rw [if_pos h]
    refine (concatenate_pair_apply_left 0 _ _ concatenates_S1x128_S99x128_S100x128_d0 (ix2 s l) rfl
      (ix2 (0 : Fin 1) l) (fun b => ?_)).trans ?_
    · match b with
      | ⟨0, _⟩ => exact h.symm
      | ⟨1, _⟩ => rfl
    · exact slice2_axis0_apply 1 p slices_S2x128_o1_0_S1x128 (0 : Fin 1) l (1 : Fin 2) rfl
  · rw [if_neg h]
    refine (concatenate_pair_apply_right 0 _ _ concatenates_S1x128_S99x128_S100x128_d0 (ix2 s l) rfl rfl
      (ix2 (⟨s.val - 1, by omega⟩ : Fin 99) l) (fun b hb => ?_) ?_).trans ?_
    · match b with
      | ⟨0, _⟩ => exact absurd rfl hb
      | ⟨1, _⟩ => rfl
    · show (s.val - 1) + 1 = s.val
      omega
    · refine (slice2_axis0_apply 0 _ slices_S100x128_o0_0_S99x128 (⟨s.val - 1, by omega⟩ : Fin 99) l
        (⟨s.val - 1, by omega⟩ : Fin 100) (by show s.val - 1 = 0 + (s.val - 1); omega)).trans ?_
      exact slice2_axis0_apply 100 v slices_S200x128_o100_0_S100x128 (⟨s.val - 1, by omega⟩ : Fin 100) l
        (⟨99 + s.val, by omega⟩ : Fin 200) (by show 99 + s.val = 100 + (s.val - 1); omega)

/-- The "right neighbour" rows: row `s ≤ 98` is row `100 + s + 1` of the 200-row value, row 99 is the pad piece's row 1. -/
theorem right_apply (v : FVec Ideal S200x128 .f32) (p : FVec Ideal S2x128 .f32) (s : Fin 100) (l : Fin 128) :
    k0_pay27 v p (ix2 s l)
      = if h : s.val < 99 then v (ix2 (⟨101 + s.val, by omega⟩ : Fin 200) l) else p (ix2 (1 : Fin 2) l) := by
  unfold k0_pay27 k0_pay25
  by_cases h : s.val < 99
  · rw [dif_pos h]
    refine (concatenate_pair_apply_left 0 _ _ concatenates_S99x128_S1x128_S100x128_d0 (ix2 s l) rfl
      (ix2 (⟨s.val, h⟩ : Fin 99) l) (fun b => ?_)).trans ?_
    · match b with
      | ⟨0, _⟩ => rfl
      | ⟨1, _⟩ => rfl
    · refine (slice2_axis0_apply 1 _ slices_S100x128_o1_0_S99x128 (⟨s.val, h⟩ : Fin 99) l
        (⟨s.val + 1, by omega⟩ : Fin 100) (by show s.val + 1 = 1 + s.val; omega)).trans ?_
      exact slice2_axis0_apply 100 v slices_S200x128_o100_0_S100x128 (⟨s.val + 1, by omega⟩ : Fin 100) l
        (⟨101 + s.val, by omega⟩ : Fin 200) (by show 101 + s.val = 100 + (s.val + 1); omega)
  · rw [dif_neg h]
    have hs : s.val = 99 := by have := s.isLt; omega
    refine (concatenate_pair_apply_right 0 _ _ concatenates_S99x128_S1x128_S100x128_d0 (ix2 s l) rfl rfl
      (ix2 (0 : Fin 1) l) (fun b hb => ?_) ?_).trans ?_
    · match b with
      | ⟨0, _⟩ => exact absurd rfl hb
      | ⟨1, _⟩ => rfl
    · show 0 + 99 = s.val
      omega
    · exact slice2_axis0_apply 1 p slices_S2x128_o1_0_S1x128 (0 : Fin 1) l (1 : Fin 2) rfl

/-- The lane sum kept as a column: entry `(s, 0)` is the sum over the 128 lanes of row `s`. -/
theorem rowSum_apply (v : FVec Ideal S100x128 .f32) (s : Fin 100) (z : Fin 1) :
    shapeCast S100x1 (multiReduction .add [1] S100 v 0x00000000#32 reduces_S100x128_S100 (.inl rfl) rfl)
        shapeCasts_S100_S100x1 (ix2 s z)
      = ∑ l : Fin 128, v (ix2 s l) := by
  refine (shapeCast_apply _ shapeCasts_S100_S100x1 (ix2 s z) (ix1 s) ?_).trans ?_
  · rw [Shape.rowMajor_val_one, Shape.rowMajor_val_two]
    have hz : z.val = 0 := by have := z.isLt; omega
    show s.val = s.val * 1 + z.val
    omega
  · refine (Ideal.multiReduction_add_single (φ := .f32) v 0x00000000#32 reduces_S100x128_S100 (.inl rfl) rfl (ix1 s)).trans ?_
    refine Finset.sum_congr rfl fun l _ => congrArg v ?_
    funext a
    match a with
    | ⟨0, _⟩ => rfl
    | ⟨1, _⟩ => rfl

/-- A column broadcast over the 128 lanes: entry `(s, l)` is the column's entry `(s, 0)`. -/
theorem colBcast_apply (c : FVec Ideal S100x1 .f32) (s : Fin 100) (l : Fin 128) :
    broadcastTo S100x128 c broadcasts_S100x1_S100x128 (ix2 s l) = c (ix2 s (0 : Fin 1)) := by
  refine broadcastTo_apply c broadcasts_S100x1_S100x128 (ix2 s l) (ix2 s (0 : Fin 1)) fun a => ?_
  match a with
  | ⟨0, _⟩ => rfl
  | ⟨1, _⟩ => rfl

/-! ## The padded sequence of the second batch -/

theorem pairB_hi (s : Fin 100) : pairB (⟨100 + s.val, by omega⟩ : Fin 200) = (1 : Fin 2) :=
  Fin.ext (by show (100 + s.val) / 100 = 1; omega)

theorem pairS_hi (s : Fin 100) : pairS (⟨100 + s.val, by omega⟩ : Fin 200) = s :=
  Fin.ext (by show (100 + s.val) % 100 = s.val; omega)

/-- The centre tap of window `s` of the second batch is block row `100 + s`. -/
theorem brow_centre (x : XBlk) (f g : PBlk) (s : Fin 100) :
    brow x f g (1 : Fin 2) (tap s 1) = fun d => x (ix2 (⟨100 + s.val, by omega⟩ : Fin 200) d) := by
  funext d
  have h0 : ¬ (tap s 1).val = 0 := by show ¬ s.val + 1 = 0; omega
  have h1 : (tap s 1).val < 101 := by show s.val + 1 < 101; omega
  unfold brow
  rw [dif_neg h0, dif_pos h1]
  exact congrArg (fun r : Fin 200 => x (ix2 r d)) (Fin.ext (by show 100 * 1 + (s.val + 1 - 1) = 100 + s.val; omega))

/-- The left tap: the forward pad row of the second batch at `s = 0`, else block row `100 + s - 1`. -/
theorem brow_left (x : XBlk) (f g : PBlk) (s : Fin 100) :
    brow x f g (1 : Fin 2) (tap s 0)
      = if s.val = 0 then (fun d => f (ix3 (1 : Fin 2) (0 : Fin 1) d))
        else fun d => x (ix2 (⟨99 + s.val, by omega⟩ : Fin 200) d) := by
  by_cases h : s.val = 0
  · rw [if_pos h]
    funext d
    have h0 : (tap s 0).val = 0 := by show s.val + 0 = 0; omega
    unfold brow
    rw [dif_pos h0]
  · rw [if_neg h]
    funext d
    have h0 : ¬ (tap s 0).val = 0 := by show ¬ s.val + 0 = 0; omega
    have h1 : (tap s 0).val < 101 := by show s.val + 0 < 101; omega
    unfold brow
    rw [dif_neg h0, dif_pos h1]
    exact congrArg (fun r : Fin 200 => x (ix2 r d)) (Fin.ext (by show 100 * 1 + (s.val + 0 - 1) = 99 + s.val; omega))

/-- The right tap: block row `100 + s + 1` for `s ≤ 98`, the backward pad row of the second batch at `s = 99`. -/
theorem brow_right (x : XBlk) (f g : PBlk) (s : Fin 100) :
    brow x f g (1 : Fin 2) (tap s 2)
      = if h : s.val < 99 then (fun d => x (ix2 (⟨101 + s.val, by omega⟩ : Fin 200) d))
        else fun d => g (ix3 (1 : Fin 2) (0 : Fin 1) d) := by
  by_cases h : s.val < 99
  · rw [dif_pos h]
    funext d
    have h0 : ¬ (tap s 2).val = 0 := by show ¬ s.val + 2 = 0; omega
    have h1 : (tap s 2).val < 101 := by show s.val + 2 < 101; omega
    unfold brow
    rw [dif_neg h0, dif_pos h1]
    exact congrArg (fun r : Fin 200 => x (ix2 r d)) (Fin.ext (by show 100 * 1 + (s.val + 2 - 1) = 101 + s.val; omega))
  · rw [dif_neg h]
    funext d
    have h0 : ¬ (tap s 2).val = 0 := by show ¬ s.val + 2 = 0; omega
    have h1 : ¬ (tap s 2).val < 101 := by show ¬ s.val + 2 < 101; omega
    unfold brow
    rw [dif_neg h0, dif_neg h1]

/-! ## The taps' projections inside the body -/

section Taps
variable (x : Vec Ideal S200x8192 .f32) (w : Vec Ideal S8192x384 .f32) (f g : Vec Ideal S2x1x8192 .f32)
  (s : Fin 100) (l : Fin 128)

/-- The centre row's query. -/
theorem qC_apply :
    k0_pay23 (k0_pay4 (F := Ideal) x w) (ix2 s l)
      = bproj (brow x f g (1 : Fin 2) (tap s 1)) w (⟨l.val, by omega⟩ : Fin 384) := by
  rw [brow_centre]
  exact (hiSlice_apply _ s l).trans (q_apply x w _ l)

/-- The centre row's key. -/
theorem kC_apply :
    k0_pay24 (k0_pay5 (F := Ideal) x w) (ix2 s l)
      = bproj (brow x f g (1 : Fin 2) (tap s 1)) w (⟨128 + l.val, by omega⟩ : Fin 384) := by
  rw [brow_centre]
  exact (hiSlice_apply _ s l).trans (k_apply x w _ l)

/-- The centre row's value. -/
theorem vC_apply :
    k0_pay25 (k0_pay6 (F := Ideal) x w) (ix2 s l) = bval x w f g (1 : Fin 2) s 1 l := by
  unfold bval
  rw [brow_centre]
  exact (hiSlice_apply _ s l).trans (v_apply x w _ l)

/-- The left tap's key. -/
theorem kL_apply :
    k0_pay26 (k0_pay5 (F := Ideal) x w) (k0_pay10 (F := Ideal) w f g) (ix2 s l)
      = bproj (brow x f g (1 : Fin 2) (tap s 0)) w (⟨128 + l.val, by omega⟩ : Fin 384) := by
  rw [brow_left, left_apply]
  by_cases h : s.val = 0
  · rw [if_pos h, if_pos h]; exact kf_apply w f g 1 l
  · rw [if_neg h, if_neg h]; exact k_apply x w _ l

/-- The left tap's value. -/
theorem vL_apply :
    k0_pay26 (k0_pay6 (F := Ideal) x w) (k0_pay11 (F := Ideal) w f g) (ix2 s l) = bval x w f g (1 : Fin 2) s 0 l := by
  unfold bval
  rw [brow_left, left_apply]
  by_cases h : s.val = 0
  · rw [if_pos h, if_pos h]; exact vf_apply w f g 1 l
  · rw [if_neg h, if_neg h]; exact v_apply x w _ l

/-- The right tap's key. -/
theorem kR_apply :
    k0_pay27 (k0_pay5 (F := Ideal) x w) (k0_pay12 (F := Ideal) w f g) (ix2 s l)
      = bproj (brow x f g (1 : Fin 2) (tap s 2)) w (⟨128 + l.val, by omega⟩ : Fin 384) := by
  rw [brow_right, right_apply]
  by_cases h : s.val < 99
  · rw [dif_pos h, dif_pos h]; exact k_apply x w _ l
  · rw [dif_neg h, dif_neg h]; exact kb_apply w f g 1 l

/-- The right tap's value. -/
theorem vR_apply :
    k0_pay27 (k0_pay6 (F := Ideal) x w) (k0_pay13 (F := Ideal) w f g) (ix2 s l) = bval x w f g (1 : Fin 2) s 2 l := by
  unfold bval
  rw [brow_right, right_apply]
  by_cases h : s.val < 99
  · rw [dif_pos h, dif_pos h]; exact v_apply x w _ l
  · rw [dif_neg h, dif_neg h]; exact vb_apply w f g 1 l

end Taps

/-! ## The scores, their maximum, the weights -/

section Scores
variable (x : Vec Ideal S200x8192 .f32) (w : Vec Ideal S8192x384 .f32) (f g : Vec Ideal S2x1x8192 .f32)
  (s : Fin 100) (z : Fin 1)

/-- The left score: the centre query against the left tap's key, summed over the 128 lanes. -/
theorem s0_apply :
    k0_pay28 (k0_pay4 (F := Ideal) x w) (k0_pay5 (F := Ideal) x w) (k0_pay10 (F := Ideal) w f g) (ix2 s z)
      = bscore x w f g (1 : Fin 2) s 0 := by
  unfold bscore
  refine (rowSum_apply (mulf (k0_pay23 (k0_pay4 (F := Ideal) x w))
    (k0_pay26 (k0_pay5 (F := Ideal) x w) (k0_pay10 (F := Ideal) w f g))) s z).trans ?_
  refine Finset.sum_congr rfl fun l _ => ?_
  refine (mulf_apply _ _ (ix2 s l)).trans ?_
  rw [qC_apply x w f g s l, kL_apply x w f g s l]

/-- The centre score. -/
theorem s1_apply :
    k0_pay29 (k0_pay4 (F := Ideal) x w) (k0_pay5 (F := Ideal) x w) (ix2 s z) = bscore x w f g (1 : Fin 2) s 1 := by
  unfold bscore
  refine (rowSum_apply (mulf (k0_pay23 (k0_pay4 (F := Ideal) x w)) (k0_pay24 (k0_pay5 (F := Ideal) x w))) s z).trans ?_
  refine Finset.sum_congr rfl fun l _ => ?_
  refine (mulf_apply _ _ (ix2 s l)).trans ?_
  rw [qC_apply x w f g s l, kC_apply x w f g s l]

/-- The right score. -/
theorem s2_apply :
    k0_pay30 (k0_pay4 (F := Ideal) x w) (k0_pay5 (F := Ideal) x w) (k0_pay12 (F := Ideal) w f g) (ix2 s z)
      = bscore x w f g (1 : Fin 2) s 2 := by
  unfold bscore
  refine (rowSum_apply (mulf (k0_pay23 (k0_pay4 (F := Ideal) x w))
    (k0_pay27 (k0_pay5 (F := Ideal) x w) (k0_pay12 (F := Ideal) w f g))) s z).trans ?_
  refine Finset.sum_congr rfl fun l _ => ?_
  refine (mulf_apply _ _ (ix2 s l)).trans ?_
  rw [qC_apply x w f g s l, kR_apply x w f g s l]

/-- The three scores' maximum. -/
theorem max_apply :
    k0_pay31 (k0_pay4 (F := Ideal) x w) (k0_pay5 (F := Ideal) x w) (k0_pay10 (F := Ideal) w f g) (k0_pay12 (F := Ideal) w f g) (ix2 s z)
      = bmax x w f g (1 : Fin 2) s := by
  unfold bmax
  rw [← s0_apply x w f g s z, ← s1_apply x w f g s z, ← s2_apply x w f g s z]
  rfl

/-- The left weight. -/
theorem e0_apply :
    k0_pay32 (k0_pay4 (F := Ideal) x w) (k0_pay5 (F := Ideal) x w) (k0_pay10 (F := Ideal) w f g) (k0_pay12 (F := Ideal) w f g) (ix2 s z)
      = bew x w f g (1 : Fin 2) s 0 := by
  unfold bew
  rw [← s0_apply x w f g s z, ← max_apply x w f g s z]
  rfl

/-- The centre weight. -/
theorem e1_apply :
    k0_pay33 (k0_pay4 (F := Ideal) x w) (k0_pay5 (F := Ideal) x w) (k0_pay10 (F := Ideal) w f g) (k0_pay12 (F := Ideal) w f g) (ix2 s z)
      = bew x w f g (1 : Fin 2) s 1 := by
  unfold bew
  rw [← s1_apply x w f g s z, ← max_apply x w f g s z]
  rfl

/-- The right weight. -/
theorem e2_apply :
    k0_pay34 (k0_pay4 (F := Ideal) x w) (k0_pay5 (F := Ideal) x w) (k0_pay10 (F := Ideal) w f g) (k0_pay12 (F := Ideal) w f g) (ix2 s z)
      = bew x w f g (1 : Fin 2) s 2 := by
  unfold bew
  rw [← s2_apply x w f g s z, ← max_apply x w f g s z]
  rfl

/-- The sum of the first two weights. -/
theorem e01_apply :
    k0_pay35 (k0_pay4 (F := Ideal) x w) (k0_pay5 (F := Ideal) x w) (k0_pay10 (F := Ideal) w f g) (k0_pay12 (F := Ideal) w f g) (ix2 s z)
      = bew x w f g (1 : Fin 2) s 0 + bew x w f g (1 : Fin 2) s 1 := by
  rw [← e0_apply x w f g s z, ← e1_apply x w f g s z]
  rfl

end Scores

/-! ## The stored value -/

/-- The value the body divides out, read at an index: the weighted taps over the weights' sum. -/
theorem pay1_apply (vC vL vR : FVec Ideal S100x128 .f32) (e0 e1 e2 e01 : FVec Ideal S100x1 .f32) (s : Fin 100) (l : Fin 128) :
    k0_pay1 vC vL vR e0 e1 e2 e01 (ix2 s l)
      = Ideal.div
          (e0 (ix2 s (0 : Fin 1)) * vL (ix2 s l) + e1 (ix2 s (0 : Fin 1)) * vC (ix2 s l) + e2 (ix2 s (0 : Fin 1)) * vR (ix2 s l))
          (e01 (ix2 s (0 : Fin 1)) + e2 (ix2 s (0 : Fin 1))) := by
  unfold k0_pay1
  refine (divf_apply _ _ (ix2 s l)).trans ?_
  refine congrArg₂ Ideal.div ?_ ?_
  · refine (addf_apply _ _ (ix2 s l)).trans ?_
    refine congrArg₂ (· + ·) ?_ ?_
    · refine (addf_apply _ _ (ix2 s l)).trans ?_
      refine congrArg₂ (· + ·) ?_ ?_
      · refine (mulf_apply _ _ (ix2 s l)).trans ?_
        exact congrArg (· * vL (ix2 s l)) (colBcast_apply e0 s l)
      · refine (mulf_apply _ _ (ix2 s l)).trans ?_
        exact congrArg (· * vC (ix2 s l)) (colBcast_apply e1 s l)
    · refine (mulf_apply _ _ (ix2 s l)).trans ?_
      exact congrArg (· * vR (ix2 s l)) (colBcast_apply e2 s l)
  · refine (colBcast_apply _ s l).trans ?_
    exact addf_apply e01 e2 (ix2 s (0 : Fin 1))

theorem hiPay_apply (x : Vec Ideal S200x8192 .f32) (w : Vec Ideal S8192x384 .f32) (f g : Vec Ideal S2x1x8192 .f32)
    (s : Fin 100) (l : Fin 128) :
    hiPay (F := Ideal) x w f g (ix2 s l) = blkAttnAt x w f g (⟨100 + s.val, by omega⟩ : Fin 200) l := by
  unfold blkAttnAt bden
  rw [pairB_hi s, pairS_hi s]
  unfold hiPay
  refine (pay1_apply _ _ _ _ _ _ _ s l).trans ?_
  rw [vL_apply x w f g s l, vC_apply x w f g s l, vR_apply x w f g s l,
    e0_apply x w f g s 0, e1_apply x w f g s 0, e2_apply x w f g s 0, e01_apply x w f g s 0]

end Cert.KernelIdeal.BlockValue

end
-- ==== Proof.KBlock.lean ====
/-
  The output block the kernel body leaves is `Cert.Attn.blkAttn` of the four blocks it loads.
-/
import proofs.«418362_j13082470384196_3_alg».proof.Proof.KBlockLo
import proofs.«418362_j13082470384196_3_alg».proof.Proof.KBlockHi
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.KernelIdeal.Frm
open Idealize.ShloMosaic Idealize.ShloMosaic.ValueIdx Cert.Attn

theorem zero2 : (![0, 0] : Fin 2 → Nat) = fun _ => 0 := funext fun a => by fin_cases a <;> rfl
theorem zero3 : (![0, 0, 0] : Fin 3 → Nat) = fun _ => 0 := funext fun a => by fin_cases a <;> rfl

/-- The body loads its four blocks whole, and each of the two stored halves is the block function on its rows (rows
    `s` and `100 + s`); the halves tile the block, so the block is the block function everywhere. -/
theorem outBlk_eq (x0 : Vec Ideal S200x8192 .f32) (x1 x2 : Vec Ideal S2x1x8192 .f32) (x3 : Vec Ideal S8192x384 .f32) :
    outBlk (F := Ideal) x0 x1 x2 x3 = blkAttn x0 x3 x1 x2 := by
  funext y
  unfold outBlk
  simp only [View.ld_unit_zero (S := S200x8192) zero2, View.ld_unit_zero (S := S8192x384) zero2,
    View.ld_unit_zero (S := S2x1x8192) zero3]
  refine View.canon_apply_of_pieces (Val := Elt Ideal) (S := S200x128) (e := .f32) (blkAttn x0 x3 x1 x2) _ ?_ y (outBlk_cover _ _ y)
  intro p hp x
  simp only [List.mem_cons, List.mem_nil_iff, or_false] at hp
  rcases hp with rfl | rfl
  · obtain ⟨s, l, rfl⟩ : ∃ (s : Fin 100) (l : Fin 128), x = ix2 s l := ⟨x 0, x 1, eq_ix2 x⟩
    have hs : s.val < 100 := s.isLt
    refine (hiPay_apply x0 x3 x1 x2 s l).trans ?_
    show _ = blkAttnAt x0 x3 x1 x2 ((rHi.emb (ix2 s l)) 0) ((rHi.emb (ix2 s l)) 1)
    refine congr (congrArg (blkAttnAt x0 x3 x1 x2) (Fin.ext ?_)) (Fin.ext ?_)
    · show 100 + s.val = 100 + 1 * s.val; omega
    · show l.val = 0 + 1 * l.val; omega
  · obtain ⟨s, l, rfl⟩ : ∃ (s : Fin 100) (l : Fin 128), x = ix2 s l := ⟨x 0, x 1, eq_ix2 x⟩
    have hs : s.val < 100 := s.isLt
    refine (loPay_apply x0 x3 x1 x2 s l).trans ?_
    show _ = blkAttnAt x0 x3 x1 x2 ((rLo.emb (ix2 s l)) 0) ((rLo.emb (ix2 s l)) 1)
    refine congr (congrArg (blkAttnAt x0 x3 x1 x2) (Fin.ext ?_)) (Fin.ext ?_)
    · show s.val = 0 + 1 * s.val; omega
    · show l.val = 0 + 1 * l.val; omega

end Cert.KernelIdeal.BlockValue

end
-- ==== Proof.KVFinal.lean ====
/-
  From the blocks to the result array. The output window's block at grid point `t` is rows `200 t .. 200 t + 199` of a
  1600 by 128 array, and the eight blocks tile it: the array after the region is one function `Gflat`, row `R` of it
  being row `R % 200` of point `R / 200`'s output block. After the region the array is unflattened to
  16 by 100 by 128 (row `100 b + s` is batch `b`, position `s`) and its lanes 100..127 are cut off. At batch `b`,
  position `s`, feature `p < 100` the result is therefore point `b / 2`'s block at row `100 (b % 2) + s`, lane `p`,
  which is the windowed attention `attendK` of the six argument arrays at `(b, s, p)`.
-/
import proofs.«418362_j13082470384196_3_alg».proof.Proof.KVSeqPads
import proofs.«418362_j13082470384196_3_alg».proof.Proof.KVWeights
import proofs.«418362_j13082470384196_3_alg».proof.Proof.KBlock
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem Cert.Attn
open Idealize.ShloMosaic.Pipeline (Dat Cfg Window)

variable (m : (ℓ : Loc nD τ sig) → Buf (Elt Ideal) ℓ)

variable (ρ : Dev nD → PrngReg)

/-- Point `t`'s output block. -/
def blkOut (c : Dev nD) (t : Fin cfg0.N) : OBlk :=
  outBlk (F := Ideal) (iblk m c 0 t) (iblk m c 1 t) (iblk m c 2 t) (iblk m c 3 t)

/-- On the real lanes it is the attention of the argument arrays, at the batch and position the row stands for. -/
theorem blkOut_apply (c : Dev nD) (t : Fin cfg0.N) (r : Fin 200) (l : Fin 128) (hl : l.val < 100) :
    blkOut m c t (ix2 r l)
      = attendK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (ix3 (batchOf (pt8 t) (pairB r)) (pairS r) (⟨l.val, hl⟩ : Fin 100)) := by
  unfold blkOut
  refine (congrFun (BlockValue.outBlk_eq _ _ _ _) (ix2 r l)).trans ?_
  exact blkAttnAt_eq_attendK _ _ _ _ _ _ (pt8 t) _ _ _ _ (xblk_apply m c t) (wblk_apply m c t) (fblk_apply m c t)
    (gblk_apply m c t) r l hl

/-- The grid point whose block holds flat row `R`. -/
def tOf (R : Fin 1600) : Fin cfg0.N := ⟨R.val / 200, by have h := R.isLt; have e : cfg0.N = 8 := N_0; omega⟩

/-- The flat output array after the region. -/
def Gflat (c : Dev nD) : S1600x128.Idx → EReal := fun i =>
  blkOut m c (tOf (i 0)) (ix2 (⟨(i 0).val % 200, Nat.mod_lt _ (by decide)⟩ : Fin 200) (i 1))

/-- The output window's block index at point `t` is `(t, 0)`. -/
theorem idx4 : ∀ t : Fin cfg0.N, win0_4.index t (0 : Fin 2) = t.val ∧ win0_4.index t (1 : Fin 2) = 0 :=
  (by decide +kernel : ∀ t : Fin grid0.N, _)

/-- What point `t` writes back is block `t` of `Gflat`. -/
theorem flushed4_eq (c : Dev nD) (t : Fin cfg0.N) :
    (dats m 0 c).flushed 4 t = ((cfg0.win 4).blk t).view.read (Elt Ideal) (Gflat m c) := by
  show (cfg0.win 4).cut (grid0.coords t) ((dats m 0 c).after 4 t) = _
  rw [after0_4]
  funext j
  obtain ⟨e0, e1⟩ := idx4 t
  have hj0 : (j 0).val < 200 := (j 0).isLt
  have hj1 : (j 1).val < 128 := (j 1).isLt
  have ht8 : t.val < 8 := Nat.lt_of_lt_of_eq t.isLt N_0
  have h0 : ((((cfg0.win 4).blk t).view.emb j) 0).val = t.val * 200 + (j 0).val := by
    show win0_4.index t (0 : Fin 2) * 200 + 1 * (j 0).val = _; omega
  have h1 : ((((cfg0.win 4).blk t).view.emb j) 1).val = (j 1).val := by
    show win0_4.index t (1 : Fin 2) * 128 + 1 * (j 1).val = _; omega
  have ht : tOf ((((cfg0.win 4).blk t).view.emb j) 0) = t := Fin.ext (by
    show ((((cfg0.win 4).blk t).view.emb j) 0).val / 200 = t.val; rw [h0]; omega)
  show blkOut m c t j = blkOut m c (tOf ((((cfg0.win 4).blk t).view.emb j) 0))
    (ix2 (⟨((((cfg0.win 4).blk t).view.emb j) 0).val % 200, Nat.mod_lt _ (by decide)⟩ : Fin 200) ((((cfg0.win 4).blk t).view.emb j) 1))
  rw [ht]
  refine congrArg (blkOut m c t) ?_
  funext a
  match a with
  | ⟨0, _⟩ => exact Fin.ext (by show (j 0).val = ((((cfg0.win 4).blk t).view.emb j) 0).val % 200; rw [h0]; omega)
  | ⟨1, _⟩ => exact Fin.ext (by show (j 1).val = ((((cfg0.win 4).blk t).view.emb j) 1).val; rw [h1])

/-- An index of the array is in point `t`'s block iff each coordinate is in the block's range on its axis. -/
theorem mem_blk4 (t : Fin cfg0.N) (i : S1600x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v5).slice (win0_4.rect t)).set ↔ _
  rw [View.set_slice_whole, Rect.mem_set_unit]
  exact Iff.rfl

/-- Every row of the array is in some point's block: the eight blocks tile it. -/
theorem cover4 (i : S1600x128.Idx) :
    ∃ t : Fin cfg0.N, (cfg0.win 4).flush t = true ∧ i ∈ ((cfg0.win 4).blk t).view.set := by
  have hi0 : (i 0).val < 1600 := (i 0).isLt
  have hi1 : (i 1).val < 128 := (i 1).isLt
  refine ⟨tOf (i 0), flush0_4 _, ?_⟩
  rw [mem_blk4]
  obtain ⟨e0, e1⟩ := idx4 (tOf (i 0))
  have ht : (tOf (i 0)).val = (i 0).val / 200 := rfl
  intro a
  match a with
  | ⟨0, _⟩ =>
    show win0_4.index (tOf (i 0)) (0 : Fin 2) * 200 ≤ (i 0).val ∧ (i 0).val < win0_4.index (tOf (i 0)) (0 : Fin 2) * 200 + 200
    omega
  | ⟨1, _⟩ =>
    show win0_4.index (tOf (i 0)) (1 : Fin 2) * 128 ≤ (i 1).val ∧ (i 1).val < win0_4.index (tOf (i 0)) (1 : Fin 2) * 128 + 128
    omega

/-- The output array after the run. -/
theorem final4 (c : Dev nD) : (dats m 0 c).arrAt 4 cfg0.N = Gflat m c :=
  (dats m 0 c).arrAt_eq_of_cover 4 (Gflat m c) (fun t _ => flushed4_eq m c t) cover4

/-- The result buffer after the two host operations that follow the region: the flat array unflattened, its padding
    lanes cut off. -/
theorem tail_v7 (c : Dev nD) :
    Pipeline.afterTail₀ cfgs (dats m) 0 (V0 m) [hostOps1] c main_v7
      = extractStridedSlice S16x100x100 ![0, 0, 0]
          (shapeCast S16x100x128 (Gflat m c) shapeCasts_S1600x128_S16x100x128) slices_S16x100x128_S16x100x100_0_0_0 := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.tc.devRef main_v5)
        = Gflat m c from (Pipeline.withArrays_arr spec0 launch0.win.arr_inj c _ _ 4).trans (final4 m c)]
  rfl

/-- The result at batch `b`, position `s`, feature `p`: the flat array at row `100 b + s`, lane `p`. -/
theorem tail_v7_apply (c : Dev nD) (b : Fin 16) (s : Fin 100) (p : Fin 100) :
    Pipeline.afterTail₀ cfgs (dats m) 0 (V0 m) [hostOps1] c main_v7 (ix3 b s p)
      = Gflat m c (ix2 (⟨100 * b.val + s.val, by have := b.isLt; have := s.isLt; omega⟩ : Fin 1600) (⟨p.val, by have := p.isLt; omega⟩ : Fin 128)) := by
  rw [tail_v7]
  have hb : b.val < 16 := b.isLt
  have hs : s.val < 100 := s.isLt
  have hp : p.val < 100 := p.isLt
  refine (extractStridedSlice_apply ![0, 0, 0] _ slices_S16x100x128_S16x100x100_0_0_0 (ix3 b s p)
    (ix3 b s (⟨p.val, by omega⟩ : Fin 128)) (fun a => match a with
      | ⟨0, _⟩ => by show b.val = 0 + b.val; omega
      | ⟨1, _⟩ => by show s.val = 0 + s.val; omega
      | ⟨2, _⟩ => by show p.val = 0 + p.val; omega)).trans ?_
  exact shapeCast_apply (Gflat m c) shapeCasts_S1600x128_S16x100x128 (ix3 b s (⟨p.val, by omega⟩ : Fin 128))
    (ix2 (⟨100 * b.val + s.val, by omega⟩ : Fin 1600) (⟨p.val, by omega⟩ : Fin 128))
    (by rewrite [Shape.rowMajor_val_two, Shape.rowMajor_val_three]
        show (100 * b.val + s.val) * 128 + p.val = (b.val * 100 + s.val) * 128 + p.val; omega)

/-- The result array is the windowed attention of the six argument arrays. -/
theorem result_eq (c : Dev nD) :
    Pipeline.afterTail₀ cfgs (dats m) 0 (V0 m) [hostOps1] c main_v7
      = attendK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, s, p, rfl⟩ : ∃ (b : Fin 16) (s : Fin 100) (p : Fin 100), i = ix3 b s p := ⟨i 0, i 1, i 2, eq_ix3 i⟩
  have hb : b.val < 16 := b.isLt
  have hs : s.val < 100 := s.isLt
  have hp : p.val < 100 := p.isLt
  rw [tail_v7_apply]
  unfold Gflat
  refine (blkOut_apply m c _ _ _ (by show p.val < 100; exact hp)).trans ?_
  refine congrArg (attendK _ _ _ _ _ _) ?_
  funext a
  match a with
  | ⟨0, _⟩ => exact Fin.ext (by show 2 * ((100 * b.val + s.val) / 200) + (100 * b.val + s.val) % 200 / 100 = b.val; omega)
  | ⟨1, _⟩ => exact Fin.ext (by show (100 * b.val + s.val) % 200 % 100 = s.val; omega)
  | ⟨2, _⟩ => exact Fin.ext (by show p.val = p.val; rfl)

/-! ## The kernel's run, read -/

/-- Every weakly fair execution of @main terminates with the result buffer at the windowed attention of the argument
    arrays, and the argument arrays unchanged. -/
theorem run : θ_run defs (onTc (τ := τ) (main (F := Ideal))) ⟨m, fun _ => 0, ρ⟩ fun r => ∀ c : Dev nD,
      r.2.mem ((c.tc : Thread nD τ).loc main_v7) = attendK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans ((((dats m) 0 c).arrAt_in 1 rfl _).trans ((A_eq m c 1).trans (V_main_arg4 m c))),
      ((h c).1 2).trans ((((dats m) 0 c).arrAt_in 2 rfl _).trans ((A_eq m c 2).trans (V_main_arg5 m c)))⟩)
    (run_main m ρ)

end Cert.KernelIdeal.Val

end
-- ==== Proof.RefAttn.lean ====
/-
  The reference program's result, as a function of its six arguments, is the windowed attention `Cert.Attn.attend`.

  The reference joins the forward pad, the sequence and the backward pad into 102 rows per batch, builds the table of
  row numbers s + w (position s, tap w) as 32-bit words, gathers whole rows by it, projects the gathered rows by the
  three matrices, takes the inner products of queries and keys, soft-maxes them over the taps and sums the taps' values
  by the weights; its result is the centre tap's slice. Each stage is read at an index built from coordinates; the
  three stages that are not read element from element — the joining, the gather and the maximum over the taps — are
  read first, each by a lemma of its own.
-/
import proofs.«418362_j13082470384196_3_alg».proof.Proof.Gen.ReferenceIdeal.Read
import proofs.«418362_j13082470384196_3_alg».proof.Proof.AttnSpec
import Idealize.ShloMosaic.Lib.StableHlo.Predicate

noncomputable section

open scoped BigOperators

namespace Cert.RefAttn

open Idealize.ShloMosaic Idealize.ShloMosaic.ValueIdx Cert.Attn
open Cert.ReferenceIdeal Cert.ReferenceIdeal.Read

/-! ## Indices by coordinates -/

/-- Two rank-2 indices with equal coordinates are equal. -/
theorem ix2_ext {n0 n1 : Nat} {i j : (⟨2, ![n0, n1]⟩ : Shape).Idx} (h0 : i 0 = j 0) (h1 : i 1 = j 1) : i = j := by
  funext a
  match a with
  | ⟨0, _⟩ => exact h0
  | ⟨1, _⟩ => exact h1

/-- Two rank-3 indices with equal coordinates are equal. -/
theorem ix3_ext {n0 n1 n2 : Nat} {i j : (⟨3, ![n0, n1, n2]⟩ : Shape).Idx} (h0 : i 0 = j 0) (h1 : i 1 = j 1)
    (h2 : i 2 = j 2) : i = j := by
  funext a
  match a with
  | ⟨0, _⟩ => exact h0
  | ⟨1, _⟩ => exact h1
  | ⟨2, _⟩ => exact h2

/-- Two rank-4 indices with equal coordinates are equal. -/
theorem ix4_ext {n0 n1 n2 n3 : Nat} {i j : (⟨4, ![n0, n1, n2, n3]⟩ : Shape).Idx} (h0 : i 0 = j 0) (h1 : i 1 = j 1)
    (h2 : i 2 = j 2) (h3 : i 3 = j 3) : i = j := by
  funext a
  match a with
  | ⟨0, _⟩ => exact h0
  | ⟨1, _⟩ => exact h1
  | ⟨2, _⟩ => exact h2
  | ⟨3, _⟩ => exact h3

/-! ## The table of row numbers -/

/-- The index table's word at (s, w) is the word of s + w. -/
theorem idx_word (s : Fin 100) (w : Fin 3) :
    val_main_v13 (F := Ideal) (ix3 s w (0 : Fin 1)) = BitVec.ofNat 32 (s.val + w.val) := by
  rw [val_main_v13_apply, val_main_v12_apply, val_main_v9_apply, val_main_v11_apply, val_main_v7_apply,
    val_main_v5_apply, val_main_v2_apply, val_main_v1_apply, val_main_v6_apply, val_main_v4_apply, val_main_v3_apply,
    val_main_v8_apply, val_main_c_apply, val_main_v10_apply, val_main_c_0_apply]
  show Scalar.select (IntOp.cmpi .slt (IntOp.addi (BitVec.ofNat 32 s.val) (BitVec.ofNat 32 w.val)) 0#32)
      (IntOp.addi (IntOp.addi (BitVec.ofNat 32 s.val) (BitVec.ofNat 32 w.val)) 102#32)
      (IntOp.addi (BitVec.ofNat 32 s.val) (BitVec.ofNat 32 w.val)) = BitVec.ofNat 32 (s.val + w.val)
  have hadd : IntOp.addi (BitVec.ofNat 32 s.val) (BitVec.ofNat 32 w.val) = BitVec.ofNat 32 (s.val + w.val) :=
    (BitVec.ofNat_add s.val w.val).symm
  rw [hadd]
  have hs := s.isLt
  have hw := w.isLt
  have hn : ¬ IntOp.cmpi .slt (BitVec.ofNat 32 (s.val + w.val)) 0#32 = 1#1 := by
    rw [StableHlo.Predicate.slt_iff_toNat (by rw [BitVec.toNat_ofNat]; omega) (by decide)]
    simp
  exact if_neg hn

/-! ## The gather of whole rows -/

/-- The gather read at (b, s, w, d): the operand's row is the start word at (s, w), read signed and clamped into
    [0, 101]; batch and feature are the result's own. -/
theorem gather_apply (x : S16x102x8192.Idx → EReal) (idx : IVec S100x3x1 32)
    (b : Fin 16) (s : Fin 100) (w : Fin 3) (d : Fin 8192) :
    Host.gather gather_S16x102x8192_S100x3x1_S16x100x3x8192_03_1_n_n_1_2_1618192 x idx (ix4 b s w d)
      = x (ix3 b (⟨min (idx (ix3 s w (0 : Fin 1))).toInt.toNat 101, by omega⟩ : Fin 102) d) := by
  have hsi : ∀ c, gather_S16x102x8192_S100x3x1_S16x100x3x8192_03_1_n_n_1_2_1618192.siIdx (ix4 b s w d) c
      = ix3 s w (0 : Fin 1) := by
    intro c
    funext a
    refine Fin.ext ?_
    match a with
    | ⟨0, _⟩ => rfl
    | ⟨1, _⟩ => rfl
    | ⟨2, h2⟩ =>
      have h1 : (gather_S16x102x8192_S100x3x1_S16x100x3x8192_03_1_n_n_1_2_1618192.siIdx (ix4 b s w d) c ⟨2, h2⟩).val < 1 :=
        (gather_S16x102x8192_S100x3x1_S16x100x3x8192_03_1_n_n_1_2_1618192.siIdx (ix4 b s w d) c ⟨2, h2⟩).isLt
      show (gather_S16x102x8192_S100x3x1_S16x100x3x8192_03_1_n_n_1_2_1618192.siIdx (ix4 b s w d) c ⟨2, h2⟩).val = 0
      omega
  unfold Host.gather
  congr 1
  funext a
  refine Fin.ext ?_
  match a with
  | ⟨0, _⟩ =>
    show gather_S16x102x8192_S100x3x1_S16x100x3x8192_03_1_n_n_1_2_1618192.start (ix4 b s w d) idx 0
        + gather_S16x102x8192_S100x3x1_S16x100x3x8192_03_1_n_n_1_2_1618192.batchCoord (ix4 b s w d) 0
        + gather_S16x102x8192_S100x3x1_S16x100x3x8192_03_1_n_n_1_2_1618192.offCoord (ix4 b s w d) 0 = b.val
    rw [GatherDims.batchCoord_eq_zero _ _ _ (by decide)]
    unfold GatherDims.start GatherDims.offCoord
    rw [dif_neg (by decide), dif_pos (by decide), Nat.add_zero, Nat.zero_add]
    rfl
  | ⟨1, _⟩ =>
    show gather_S16x102x8192_S100x3x1_S16x100x3x8192_03_1_n_n_1_2_1618192.start (ix4 b s w d) idx 1
        + gather_S16x102x8192_S100x3x1_S16x100x3x8192_03_1_n_n_1_2_1618192.batchCoord (ix4 b s w d) 1
        + gather_S16x102x8192_S100x3x1_S16x100x3x8192_03_1_n_n_1_2_1618192.offCoord (ix4 b s w d) 1
      = min (idx (ix3 s w (0 : Fin 1))).toInt.toNat 101
    rw [GatherDims.batchCoord_eq_zero _ _ _ (by decide), GatherDims.offCoord_eq_zero _ _ _ (by decide)]
    unfold GatherDims.start
    rw [dif_pos (by decide), hsi]
    rfl
  | ⟨2, _⟩ =>
    show gather_S16x102x8192_S100x3x1_S16x100x3x8192_03_1_n_n_1_2_1618192.start (ix4 b s w d) idx 2
        + gather_S16x102x8192_S100x3x1_S16x100x3x8192_03_1_n_n_1_2_1618192.batchCoord (ix4 b s w d) 2
        + gather_S16x102x8192_S100x3x1_S16x100x3x8192_03_1_n_n_1_2_1618192.offCoord (ix4 b s w d) 2 = d.val
    rw [GatherDims.batchCoord_eq_zero _ _ _ (by decide)]
    unfold GatherDims.start GatherDims.offCoord
    rw [dif_neg (by decide), dif_pos (by decide), Nat.add_zero, Nat.zero_add]
    rfl

/-! ## The padded sequence -/

/-- The concatenated array's row j of batch b is the padded sequence's row j. -/
theorem concat_apply (x0 : XArr) (x4 x5 : PArr) (b : Fin 16) (j : Fin 102) (d : Fin 8192) :
    val_main_v0 (F := Ideal) x0 x4 x5 (ix3 b j d) = prow x0 x4 x5 b j d := by
  unfold val_main_v0 prow
  by_cases h0 : j.val = 0
  · rw [dif_pos h0]
    refine concatenate_apply_piece (1 : Fin 3) [⟨S16x1x8192, x4⟩, ⟨S16x100x8192, x0⟩, ⟨S16x1x8192, x5⟩] _ (ix3 b j d)
      0 (by simp) S16x1x8192 x4 rfl rfl 0 rfl (ix3 b (0 : Fin 1) d) (fun a ha => ?_) ?_
    · match a with
      | ⟨0, _⟩ => rfl
      | ⟨1, _⟩ => exact absurd rfl ha
      | ⟨2, _⟩ => rfl
    · show 0 + 0 = j.val
      omega
  · rw [dif_neg h0]
    by_cases h1 : j.val < 101
    · rw [dif_pos h1]
      refine concatenate_apply_piece (1 : Fin 3) [⟨S16x1x8192, x4⟩, ⟨S16x100x8192, x0⟩, ⟨S16x1x8192, x5⟩] _ (ix3 b j d)
        1 (by simp) S16x100x8192 x0 rfl rfl 1 rfl (ix3 b (⟨j.val - 1, by omega⟩ : Fin 100) d) (fun a ha => ?_) ?_
      · match a with
        | ⟨0, _⟩ => rfl
        | ⟨1, _⟩ => exact absurd rfl ha
        | ⟨2, _⟩ => rfl
      · show 1 + (j.val - 1) = j.val
        omega
    · rw [dif_neg h1]
      have hj := j.isLt
      refine concatenate_apply_piece (1 : Fin 3) [⟨S16x1x8192, x4⟩, ⟨S16x100x8192, x0⟩, ⟨S16x1x8192, x5⟩] _ (ix3 b j d)
        2 (by simp) S16x1x8192 x5 rfl rfl 101 rfl (ix3 b (0 : Fin 1) d) (fun a ha => ?_) ?_
      · match a with
        | ⟨0, _⟩ => rfl
        | ⟨1, _⟩ => exact absurd rfl ha
        | ⟨2, _⟩ => rfl
      · show 101 + 0 = j.val
        omega

/-! ## The maximum over the three taps -/

/-- A fold of a commutative, associative operation over three values. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- The maximum over the last axis, from minus infinity, read at (b, s, w): the largest of the three entries. -/
theorem reduce_max3 (y : FVec Ideal S16x100x3x3 .f32) (b : Fin 16) (s : Fin 100) (w : Fin 3) :
    Host.reduce FloatOps.maximumf y (val_main_cst (F := Ideal)) Facts₀.reducesTo_S16x100x3x3_S16x100x3_d3 Facts₀.h_S_ (ix3 b s w)
      = max (max (y (ix4 b s w (0 : Fin 3))) (y (ix4 b s w (1 : Fin 3)))) (y (ix4 b s w (2 : Fin 3))) := by
  have h : S16x100x3x3.Reduces [(3 : Fin 4)] S16x100x3 := by decide
  refine (Host.reduce_eq_fold_single FloatOps.maximumf y _ Facts₀.reducesTo_S16x100x3x3_S16x100x3_d3 h Facts₀.h_S_ (ix3 b s w)).trans ?_
  refine (fold_univ_fin3 (FloatOps.maximumf (F := Ideal) (φ := .f32)) _ _).trans ?_
  have hl : ∀ k : Fin 3, h.lift (ix3 b s w) k = ix4 b s w k := by
    intro k
    funext c
    refine Fin.ext ?_
    match c with
    | ⟨0, _⟩ => rfl
    | ⟨1, _⟩ => rfl
    | ⟨2, _⟩ => rfl
    | ⟨3, _⟩ => rfl
  show max (y (h.lift (ix3 b s w) (0 : Fin 3))) (max (y (h.lift (ix3 b s w) (1 : Fin 3)))
    (max (y (h.lift (ix3 b s w) (2 : Fin 3))) (Ideal.ofBits .f32 0xFF800000#32))) = _
  rw [hl, hl, hl]
  have hb : ∀ z : EReal, max z (Ideal.ofBits .f32 0xFF800000#32) = z := by
    intro z; simp [Ideal.ofBits, Ideal.ieee]
  rw [hb, max_assoc]

/-! ## The stages at an index -/

/-- The gathered rows: entry (b, s, w, d) is feature d of padded row s + w of batch b. -/
theorem v14_at (x0 : XArr) (x4 x5 : PArr) (b : Fin 16) (s : Fin 100) (w : Fin 3) (d : Fin 8192) :
    val_main_v14 (F := Ideal) x0 x4 x5 (ix4 b s w d) = prow x0 x4 x5 b (tap s w) d := by
  unfold val_main_v14
  refine (gather_apply _ _ b s w d).trans ?_
  have hs := s.isLt
  have hw := w.isLt
  have e : (⟨min (val_main_v13 (F := Ideal) (ix3 s w (0 : Fin 1))).toInt.toNat 101, by omega⟩ : Fin 102) = tap s w := by
    refine Fin.ext ?_
    show min (val_main_v13 (F := Ideal) (ix3 s w (0 : Fin 1))).toInt.toNat 101 = s.val + w.val
    rw [idx_word, StableHlo.Predicate.toInt_ofNat_small _ (by omega), Int.toNat_natCast]
    exact min_eq_left (by omega)
  rw [e, concat_apply]

/-- The query projection of the gathered rows. -/
theorem v15_at (x0 : XArr) (x1 : WArr) (x4 x5 : PArr) (b : Fin 16) (s : Fin 100) (w : Fin 3) (p : Fin 100) :
    val_main_v15 (F := Ideal) x0 x1 x4 x5 (ix4 b s w p) = proj (prow x0 x4 x5 b (tap s w)) x1 p := by
  refine (val_main_v15_apply x0 x1 x4 x5 _).trans ?_
  unfold proj
  refine Finset.sum_congr rfl fun k _ => ?_
  have el : lidx_main_v15 (ix4 b s w p) k = ix4 b s w k := ix4_ext rfl rfl rfl rfl
  have er : ridx_main_v15 (ix4 b s w p) k = ix2 k p := ix2_ext rfl rfl
  rw [el, er, v14_at]

/-- The key projection of the gathered rows. -/
theorem v16_at (x0 : XArr) (x2 : WArr) (x4 x5 : PArr) (b : Fin 16) (s : Fin 100) (w : Fin 3) (p : Fin 100) :
    val_main_v16 (F := Ideal) x0 x2 x4 x5 (ix4 b s w p) = proj (prow x0 x4 x5 b (tap s w)) x2 p := by
  refine (val_main_v16_apply x0 x2 x4 x5 _).trans ?_
  unfold proj
  refine Finset.sum_congr rfl fun k _ => ?_
  have el : lidx_main_v16 (ix4 b s w p) k = ix4 b s w k := ix4_ext rfl rfl rfl rfl
  have er : ridx_main_v16 (ix4 b s w p) k = ix2 k p := ix2_ext rfl rfl
  rw [el, er, v14_at]

/-- The value projection of the gathered rows. -/
theorem v17_at (x0 : XArr) (x3 : WArr) (x4 x5 : PArr) (b : Fin 16) (s : Fin 100) (w : Fin 3) (p : Fin 100) :
    val_main_v17 (F := Ideal) x0 x3 x4 x5 (ix4 b s w p) = proj (prow x0 x4 x5 b (tap s w)) x3 p := by
  refine (val_main_v17_apply x0 x3 x4 x5 _).trans ?_
  unfold proj
  refine Finset.sum_congr rfl fun k _ => ?_
  have el : lidx_main_v17 (ix4 b s w p) k = ix4 b s w k := ix4_ext rfl rfl rfl rfl
  have er : ridx_main_v17 (ix4 b s w p) k = ix2 k p := ix2_ext rfl rfl
  rw [el, er, v14_at]

/-- The scores: tap w's query against tap u's key. -/
theorem v18_at (x0 : XArr) (x1 x2 : WArr) (x4 x5 : PArr) (b : Fin 16) (s : Fin 100) (w u : Fin 3) :
    val_main_v18 (F := Ideal) x0 x1 x2 x4 x5 (ix4 b s w u)
      = ∑ p : Fin 100, proj (prow x0 x4 x5 b (tap s w)) x1 p * proj (prow x0 x4 x5 b (tap s u)) x2 p := by
  refine (val_main_v18_apply x0 x1 x2 x4 x5 _).trans ?_
  refine Finset.sum_congr rfl fun k _ => ?_
  have el : lidx_main_v18 (ix4 b s w u) k = ix4 b s w k := ix4_ext rfl rfl rfl rfl
  have er : ridx_main_v18 (ix4 b s w u) k = ix4 b s u k := ix4_ext rfl rfl rfl rfl
  rw [el, er, v15_at, v16_at]

/-- The row maximum of the scores. -/
theorem v21_at (x0 : XArr) (x1 x2 : WArr) (x4 x5 : PArr) (b : Fin 16) (s : Fin 100) (w : Fin 3) :
    val_main_v21 (F := Ideal) x0 x1 x2 x4 x5 (ix3 b s w)
      = max (max (val_main_v18 (F := Ideal) x0 x1 x2 x4 x5 (ix4 b s w (0 : Fin 3)))
          (val_main_v18 (F := Ideal) x0 x1 x2 x4 x5 (ix4 b s w (1 : Fin 3))))
          (val_main_v18 (F := Ideal) x0 x1 x2 x4 x5 (ix4 b s w (2 : Fin 3))) := by
  rw [val_main_v21_apply, val_main_v20_apply, val_main_cst_1_apply]
  unfold val_main_v19
  have hr := reduce_max3 (val_main_v18 (F := Ideal) x0 x1 x2 x4 x5) b s w
  have hb : ∀ z : EReal, max (Ideal.ofBits .f32 0xFF800000#32) z = z := by
    intro z; simp [Ideal.ofBits, Ideal.ieee]
  exact (congrArg (fun z => max (Ideal.ofBits .f32 0xFF800000#32) z) hr).trans (hb _)

/-- The unnormalized weights. -/
theorem v25_at (x0 : XArr) (x1 x2 : WArr) (x4 x5 : PArr) (b : Fin 16) (s : Fin 100) (w u : Fin 3) :
    val_main_v25 (F := Ideal) x0 x1 x2 x4 x5 (ix4 b s w u)
      = Ideal.exp (val_main_v18 (F := Ideal) x0 x1 x2 x4 x5 (ix4 b s w u)
          - val_main_v21 (F := Ideal) x0 x1 x2 x4 x5 (ix3 b s w)) := by
  rw [val_main_v25_apply, val_main_v24_apply, val_main_v23_apply, val_main_v22_apply]
  have e : idx_main_v22 (idx_main_v23 (ix4 b s w u)) = ix3 b s w := ix3_ext rfl rfl rfl
  rw [e]
  generalize val_main_v18 (F := Ideal) x0 x1 x2 x4 x5 (ix4 b s w u) = A
  generalize val_main_v21 (F := Ideal) x0 x1 x2 x4 x5 (ix3 b s w) = B
  rfl

/-- The denominators. -/
theorem v26_at (x0 : XArr) (x1 x2 : WArr) (x4 x5 : PArr) (b : Fin 16) (s : Fin 100) (w : Fin 3) :
    val_main_v26 (F := Ideal) x0 x1 x2 x4 x5 (ix3 b s w)
      = val_main_v25 (F := Ideal) x0 x1 x2 x4 x5 (ix4 b s w (0 : Fin 3))
        + val_main_v25 (F := Ideal) x0 x1 x2 x4 x5 (ix4 b s w (1 : Fin 3))
        + val_main_v25 (F := Ideal) x0 x1 x2 x4 x5 (ix4 b s w (2 : Fin 3)) := by
  refine (val_main_v26_apply x0 x1 x2 x4 x5 _).trans ?_
  rw [val_main_cst_2_apply, Fin.sum_univ_three]
  have e : ∀ k : Fin 3, idx_main_v26 (ix3 b s w) k = ix4 b s w k := fun k => ix4_ext rfl rfl rfl rfl
  rw [e, e, e]
  show Ideal.ofBits .f32 0x00000000#32 + _ = _
  rw [Ideal.ofBits_zero_f32, zero_add]

/-- The normalized weights. -/
theorem v29_at (x0 : XArr) (x1 x2 : WArr) (x4 x5 : PArr) (b : Fin 16) (s : Fin 100) (w u : Fin 3) :
    val_main_v29 (F := Ideal) x0 x1 x2 x4 x5 (ix4 b s w u)
      = Ideal.div (val_main_v25 (F := Ideal) x0 x1 x2 x4 x5 (ix4 b s w u))
          (val_main_v26 (F := Ideal) x0 x1 x2 x4 x5 (ix3 b s w)) := by
  rw [val_main_v29_apply, val_main_v28_apply, val_main_v27_apply]
  have e : idx_main_v27 (idx_main_v28 (ix4 b s w u)) = ix3 b s w := ix3_ext rfl rfl rfl
  rw [e]
  generalize val_main_v25 (F := Ideal) x0 x1 x2 x4 x5 (ix4 b s w u) = A
  generalize val_main_v26 (F := Ideal) x0 x1 x2 x4 x5 (ix3 b s w) = B
  rfl

/-- The weighted sum of the three taps' values. -/
theorem v30_at (x0 : XArr) (x1 x2 x3 : WArr) (x4 x5 : PArr) (b : Fin 16) (s : Fin 100) (w : Fin 3) (p : Fin 100) :
    val_main_v30 (F := Ideal) x0 x1 x2 x3 x4 x5 (ix4 b s w p)
      = val_main_v29 (F := Ideal) x0 x1 x2 x4 x5 (ix4 b s w (0 : Fin 3)) * val_main_v17 (F := Ideal) x0 x3 x4 x5 (ix4 b s (0 : Fin 3) p)
        + val_main_v29 (F := Ideal) x0 x1 x2 x4 x5 (ix4 b s w (1 : Fin 3)) * val_main_v17 (F := Ideal) x0 x3 x4 x5 (ix4 b s (1 : Fin 3) p)
        + val_main_v29 (F := Ideal) x0 x1 x2 x4 x5 (ix4 b s w (2 : Fin 3)) * val_main_v17 (F := Ideal) x0 x3 x4 x5 (ix4 b s (2 : Fin 3) p) := by
  refine (val_main_v30_apply x0 x1 x2 x3 x4 x5 _).trans ?_
  rw [Fin.sum_univ_three]
  have el : ∀ k : Fin 3, lidx_main_v30 (ix4 b s w p) k = ix4 b s w k := fun k => ix4_ext rfl rfl rfl rfl
  have er : ∀ k : Fin 3, ridx_main_v30 (ix4 b s w p) k = ix4 b s k p := fun k => ix4_ext rfl rfl rfl rfl
  rw [el, el, el, er, er, er]

/-- The result is the centre tap's slice of the weighted sums. -/
theorem v32_at (x0 : XArr) (x1 x2 x3 : WArr) (x4 x5 : PArr) (b : Fin 16) (s : Fin 100) (p : Fin 100) :
    val_main_v32 (F := Ideal) x0 x1 x2 x3 x4 x5 (ix3 b s p)
      = val_main_v30 (F := Ideal) x0 x1 x2 x3 x4 x5 (ix4 b s (1 : Fin 3) p) := by
  rw [val_main_v32_apply, val_main_v31_apply]
  have hb := b.isLt
  have hs := s.isLt
  have hp := p.isLt
  have e : idx_main_v31 (idx_main_v32 (ix3 b s p)) = ix4 b s (1 : Fin 3) p := by
    refine ix4_ext (Fin.ext ?_) (Fin.ext ?_) (Fin.ext ?_) (Fin.ext ?_)
    · show ((b.val * 100 + s.val) * 100 + p.val) / 10000 = b.val
      omega
    · show ((b.val * 100 + s.val) * 100 + p.val) / 100 % 100 = s.val
      omega
    · rfl
    · show ((b.val * 100 + s.val) * 100 + p.val) % 100 = p.val
      omega
  rw [e]

/-! ## The reference is the windowed attention -/

theorem ref_eq (x0 : XArr) (x1 x2 x3 : WArr) (x4 x5 : PArr) :
    Cert.ReferenceIdeal.Read.val_main_v32 (F := Ideal) x0 x1 x2 x3 x4 x5 = attend x0 x1 x2 x3 x4 x5 := by
  funext i
  obtain ⟨b, s, p, rfl⟩ : ∃ b s p, i = ix3 b s p := ⟨i 0, i 1, i 2, eq_ix3 i⟩
  rw [v32_at, v30_at, v29_at, v29_at, v29_at, v26_at, v25_at, v25_at, v25_at, v21_at, v18_at, v18_at, v18_at,
    v17_at, v17_at, v17_at]
  rfl

end Cert.RefAttn

end
-- ==== Proof.AttnLaw.lean ====
/-
  Dividing once or dividing each term: the two forms of the windowed attention agree when every input is a real number.
-/
import proofs.«418362_j13082470384196_3_alg».proof.Proof.AttnSpec

noncomputable section

open scoped BigOperators

namespace Cert.Attn

open Idealize.ShloMosaic Idealize.ShloMosaic.ValueIdx

/-- A finite sum of real numbers is a real number. -/
theorem sum_isReal {ι : Type} (t : Finset ι) (a : ι → EReal) (h : ∀ i, ∃ r : ℝ, a i = (r : EReal)) :
    ∃ r : ℝ, ∑ i ∈ t, a i = (r : EReal) := by
  classical
  refine Finset.induction_on t ⟨0, by simp⟩ ?_
  intro j t hj ih
  obtain ⟨r, hr⟩ := ih
  obtain ⟨c, hc⟩ := h j
  exact ⟨c + r, by rw [Finset.sum_insert hj, hr, hc, EReal.coe_add]⟩

/-- The larger of two real numbers is a real number. -/
theorem max_isReal {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

section
variable {x : XArr} {wq wk wv : WArr} {f g : PArr}

/-- Every entry of a padded row is an entry of one of the three arrays, so a real number. -/
theorem prow_isReal (hx : AllReal x) (hf : AllReal f) (hg : AllReal g) (b : Fin 16) (j : Fin 102) (d : Fin 8192) :
    ∃ r : ℝ, prow x f g b j d = (r : EReal) := by
  unfold prow
  split_ifs
  · exact hf _
  · exact hx _
  · exact hg _

/-- A real row times a real matrix is a real number: a finite sum of products of reals. -/
theorem proj_isReal {r : Fin 8192 → EReal} (hr : ∀ d, ∃ c : ℝ, r d = (c : EReal)) {w : WArr} (hw : AllReal w)
    (p : Fin 100) : ∃ c : ℝ, proj r w p = (c : EReal) := by
  unfold proj
  refine sum_isReal _ _ ?_
  intro d
  obtain ⟨a, ha⟩ := hr d
  obtain ⟨c, hc⟩ := hw (ix2 d p)
  exact ⟨a * c, by rw [ha, hc, EReal.coe_mul]⟩

/-- Every score is a real number. -/
theorem score_isReal (hx : AllReal x) (hq : AllReal wq) (hk : AllReal wk) (hf : AllReal f) (hg : AllReal g)
    (b : Fin 16) (s : Fin 100) (u : Fin 3) : ∃ r : ℝ, score x wq wk f g b s u = (r : EReal) := by
  unfold score
  refine sum_isReal _ _ ?_
  intro p
  obtain ⟨a, ha⟩ := proj_isReal (prow_isReal hx hf hg b (tap s 1)) hq p
  obtain ⟨c, hc⟩ := proj_isReal (prow_isReal hx hf hg b (tap s u)) hk p
  exact ⟨a * c, by rw [ha, hc, EReal.coe_mul]⟩

/-- The largest score is a real number. -/
theorem smax_isReal (hx : AllReal x) (hq : AllReal wq) (hk : AllReal wk) (hf : AllReal f) (hg : AllReal g)
    (b : Fin 16) (s : Fin 100) : ∃ r : ℝ, smax x wq wk f g b s = (r : EReal) := by
  unfold smax
  exact max_isReal (max_isReal (score_isReal hx hq hk hf hg b s 0) (score_isReal hx hq hk hf hg b s 1))
    (score_isReal hx hq hk hf hg b s 2)

/-- Every unnormalized weight is a positive real number: the exponential of a real. -/
theorem ew_isPos (hx : AllReal x) (hq : AllReal wq) (hk : AllReal wk) (hf : AllReal f) (hg : AllReal g)
    (b : Fin 16) (s : Fin 100) (u : Fin 3) : ∃ r : ℝ, 0 < r ∧ ew x wq wk f g b s u = (r : EReal) := by
  obtain ⟨a, ha⟩ := score_isReal hx hq hk hf hg b s u
  obtain ⟨m, hm⟩ := smax_isReal hx hq hk hf hg b s
  refine ⟨Real.exp (a - m), Real.exp_pos _, ?_⟩
  unfold ew
  rw [ha, hm, ← EReal.coe_sub, Ideal.exp_coe]

/-- The denominator is a positive real number: a sum of three positive reals. -/
theorem den_isPos (hx : AllReal x) (hq : AllReal wq) (hk : AllReal wk) (hf : AllReal f) (hg : AllReal g)
    (b : Fin 16) (s : Fin 100) : ∃ r : ℝ, 0 < r ∧ den x wq wk f g b s = (r : EReal) := by
  obtain ⟨e0, h0, he0⟩ := ew_isPos hx hq hk hf hg b s 0
  obtain ⟨e1, h1, he1⟩ := ew_isPos hx hq hk hf hg b s 1
  obtain ⟨e2, h2, he2⟩ := ew_isPos hx hq hk hf hg b s 2
  refine ⟨e0 + e1 + e2, by positivity, ?_⟩
  unfold den
  rw [he0, he1, he2, EReal.coe_add, EReal.coe_add]

/-- Every value is a real number. -/
theorem tval_isReal (hx : AllReal x) (hv : AllReal wv) (hf : AllReal f) (hg : AllReal g)
    (b : Fin 16) (s : Fin 100) (u : Fin 3) (p : Fin 100) : ∃ r : ℝ, tval x wv f g b s u p = (r : EReal) := by
  unfold tval
  exact proj_isReal (prow_isReal hx hf hg b (tap s u)) hv p

end

theorem attendK_eq_attend (x : XArr) (wq wk wv : WArr) (f g : PArr)
    (hx : AllReal x) (hq : AllReal wq) (hk : AllReal wk) (hv : AllReal wv) (hf : AllReal f) (hg : AllReal g) :
    attendK x wq wk wv f g = attend x wq wk wv f g := by
  funext i
  obtain ⟨e0, -, he0⟩ := ew_isPos hx hq hk hf hg (i 0) (i 1) 0
  obtain ⟨e1, -, he1⟩ := ew_isPos hx hq hk hf hg (i 0) (i 1) 1
  obtain ⟨e2, -, he2⟩ := ew_isPos hx hq hk hf hg (i 0) (i 1) 2
  obtain ⟨c, hc, hden⟩ := den_isPos hx hq hk hf hg (i 0) (i 1)
  obtain ⟨v0, hv0⟩ := tval_isReal hx hv hf hg (i 0) (i 1) 0 (i 2)
  obtain ⟨v1, hv1⟩ := tval_isReal hx hv hf hg (i 0) (i 1) 1 (i 2)
  obtain ⟨v2, hv2⟩ := tval_isReal hx hv hf hg (i 0) (i 1) 2 (i 2)
  have hc0 : c ≠ 0 := ne_of_gt hc
  unfold attendK attend
  -- with every factor a real and the denominator a nonzero real, both sides are one identity of real numbers:
  -- (e₀v₀ + e₁v₁ + e₂v₂)·(1/c) = e₀(1/c)v₀ + e₁(1/c)v₁ + e₂(1/c)v₂
  rw [he0, he1, he2, hden, hv0, hv1, hv2]
  simp only [Ideal.div_coe hc0, ← EReal.coe_mul, ← EReal.coe_add]
  congr 1
  ring

end Cert.Attn

end
-- ==== Proof.FiniteInputs.lean ====
/-
  Under the precondition every entry of every argument array is a real number.
-/
import proofs.«418362_j13082470384196_3_alg».proof.Defs
import proofs.«418362_j13082470384196_3_alg».proof.Proof.Gen.Pre_finite_inputs
import proofs.«418362_j13082470384196_3_alg».proof.Proof.AttnSpec
import Idealize.ShloMosaic.Lib.ReduceAll

noncomputable section

namespace Cert.Attn

open Idealize.ShloMosaic Idealize.ShloMosaic.TcCoe Idealize.SL.Sem Cert.KernelIdeal

/-- The rank-0 shape has a single index. -/
instance subsingleton_scalarIdx : Subsingleton Cert.Pre_finite_inputs.S_.Idx :=
  ⟨fun a b => funext fun d => d.elim0⟩

/-- The pattern of positive infinity denotes the top element. -/
theorem ofBits_inf : Ideal.ofBits .f32 0x7F800000#32 = (⊤ : EReal) := by
  simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An array whose all-finite flag is one has only real entries: the flag is the conjunction over every index of
    "the absolute value of the entry is below positive infinity", so each entry is neither infinity. -/
theorem allReal_of_flag {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu j = 1#1) :
    AllReal (a : s.Idx → EReal) := by
  intro i
  have hi := Host.reduce_andi_all _ _ hr hu j e i
  have hlt : max (a i) (-(a i)) < (⊤ : EReal) := by
    have h2 : Ideal.cmp .olt (max (a i) (-(a i))) (Ideal.ofBits .f32 0x7F800000#32) = 1#1 := hi
    rw [ofBits_inf] at h2
    by_contra hn
    simp [Ideal.cmp, hn] at h2
  exact real_of_abs_lt_top _ hlt

theorem allReal_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread nD τ).loc main_arg0) : XArr)
    ∧ AllReal (m ((c.tc : Thread nD τ).loc main_arg1) : WArr)
    ∧ AllReal (m ((c.tc : Thread nD τ).loc main_arg2) : WArr)
    ∧ AllReal (m ((c.tc : Thread nD τ).loc main_arg3) : WArr)
    ∧ AllReal (m ((c.tc : Thread nD τ).loc main_arg4) : PArr)
    ∧ AllReal (m ((c.tc : Thread nD τ).loc main_arg5) : PArr) := by
  -- the precondition at this device, read at the one index of its rank-0 result
  have h0 := congrFun (h c) ValueIdx.ix0
  dsimp only [Cert.Pre_finite_inputs.fn, Cert.Pre_finite_inputs.fn_part1] at h0
  -- a conjunction of six flags that is one has every flag one
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_flag _ _ _ _ _ e0, allReal_of_flag _ _ _ _ _ e1, allReal_of_flag _ _ _ _ _ e2,
    allReal_of_flag _ _ _ _ _ e3, allReal_of_flag _ _ _ _ _ e4, allReal_of_flag _ _ _ _ _ e5⟩

end Cert.Attn

end
-- ==== Proof.lean ====
/-
  The kernel computes a three-tap windowed attention: every position of a padded sequence attends, with a soft-max
  over three scores, to itself and its two neighbours. The kernel projects the whole sequence once with one fused,
  lane-padded weight matrix and forms each window by shifting rows; the reference gathers the windows first and projects
  each. Over the extended reals both are one function of the six argument arrays (`Cert.Attn.attend`): the kernel's
  result is `Cert.Attn.attendK` (the weighted values summed, then divided once by the soft-max denominator), the
  reference's is `Cert.Attn.attend` (each weight divided first), and the two agree because every input is finite, so the
  denominator is a positive real. The frames of the two kernel programs come from the body's triple and the
  pipeline's launch theorem; the reference's frame is its run with the result dropped; the ideal pass rewrote nothing.
-/
import proofs.«418362_j13082470384196_3_alg».proof.Defs
import proofs.«418362_j13082470384196_3_alg».proof.Proof.Gen.Kernel
import proofs.«418362_j13082470384196_3_alg».proof.Proof.Gen.KernelIdeal
import proofs.«418362_j13082470384196_3_alg».proof.Proof.Gen.ReferenceIdeal
import proofs.«418362_j13082470384196_3_alg».proof.Proof.Gen.ReferenceIdeal.Run
import proofs.«418362_j13082470384196_3_alg».proof.Proof.Gen.ReferenceIdeal.Read
import proofs.«418362_j13082470384196_3_alg».proof.Proof.Gen.Pre_finite_inputs
import proofs.«418362_j13082470384196_3_alg».proof.Proof.KFrame
import proofs.«418362_j13082470384196_3_alg».proof.Proof.KVFinal
import proofs.«418362_j13082470384196_3_alg».proof.Proof.RefAttn
import proofs.«418362_j13082470384196_3_alg».proof.Proof.AttnLaw
import proofs.«418362_j13082470384196_3_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result is `attendK` of its arguments and the reference's is `attend` of its own,
    which agree with the kernel's; under the precondition every entry is a real, and the two functions are one. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.Attn.allReal_of_pre m hpre c
  rw [Cert.ReferenceIdeal.Read.val_main_v32_eq, (hagree c).1, (hagree c).2.1, (hagree c).2.2.1, (hagree c).2.2.2.1,
    (hagree c).2.2.2.2.1, (hagree c).2.2.2.2.2]
  exact (Cert.RefAttn.ref_eq _ _ _ _ _ _).trans (Cert.Attn.attendK_eq_attend _ _ _ _ _ _ h0 h1 h2 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
